-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S512x1024 : Shape := ⟨2, ![512, 1024]⟩
abbrev S512 : Shape := ⟨1, ![512]⟩
abbrev S512x512 : Shape := ⟨2, ![512, 512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg0 : IVec S64x2048 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_c_6 : IVec S_ 32 := constantI S_ 32 1023#32
  let main_v19 : IVec S64x2048 32 := broadcastInDim S64x2048 ![] bcast_S_S64x2048 main_c_6
  let main_v20 : IVec S64x2048 1 := cmpi .sle main_arg0 main_v19
  let main_c_7 : IVec S_ 1 := constantI S_ 1 1#1
  let main_v21 : IVec S_ 1 := (fun x v => Host.reduce IntOp.andi x v reducesTo_S64x2048_S_d0_1 h_S_) main_v20 main_c_7
  let main_v22 : IVec S_ 1 := andi main_v18 main_v21
  main_v22

def fn {F : FTy → Type} [FloatOps F] (main_arg0 : IVec S64x2048 32) (main_arg1 : FVec F S512x1024 .f32) (main_arg2 : FVec F S512 .f32) (main_arg3 : FVec F S512x512 .f32) (main_arg4 : FVec F S512 .f32) : IVec S_ 1 :=
  let main_v0 : FVec F S512x1024 .f32 := Host.absf main_arg1
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_v13 main_v16
-- ==== Kernel.lean ====
abbrev S64x2048 : Shape := ⟨2, ![64, 2048]⟩
abbrev S512x1024 : Shape := ⟨2, ![512, 1024]⟩
abbrev S512 : Shape := ⟨1, ![512]⟩
abbrev S512x512 : Shape := ⟨2, ![512, 512]⟩
abbrev S_ : Shape := ⟨0, ![]⟩
abbrev S131072x1 : Shape := ⟨2, ![131072, 1]⟩
abbrev S1024x512 : Shape := ⟨2, ![1024, 512]⟩
abbrev S1x512 : Shape := ⟨2, ![1, 512]⟩
abbrev S131072x512 : Shape := ⟨2, ![131072, 512]⟩
abbrev S4096x1 : Shape := ⟨2, ![4096, 1]⟩
abbrev S4096x512 : Shape := ⟨2, ![4096, 512]⟩
abbrev S4096x256 : Shape := ⟨2, ![4096, 256]⟩
abbrev S256x512 : Shape := ⟨2, ![256, 512]⟩
abbrev S64x2048x512 : Shape := ⟨3, ![64, 2048, 512]⟩

abbrev nBuf : Space → Nat
  | .hbm => 32
  | .vmem => 6
  | .smem => 0
  | _ => 0

abbrev bufTy : (tb : Table) → Fin (tcTables nBuf tb) → BufTy
  | .hbm, ⟨0, _⟩ => ⟨S64x2048, .i32⟩
  | .hbm, ⟨1, _⟩ => ⟨S512x1024, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64x2048, .i32⟩
  | .hbm, ⟨9, _⟩ => ⟨S64x2048, .i32⟩
  | .hbm, ⟨10, _⟩ => ⟨S_, .i32⟩
  | .hbm, ⟨11, _⟩ => ⟨S64x2048, .i32⟩
  | .hbm, ⟨12, _⟩ => ⟨S64x2048, .i32⟩
  | .hbm, ⟨13, _⟩ => ⟨S131072x1, .i32⟩
  | .hbm, ⟨14, _⟩ => ⟨S1024x512, .f32⟩
  | .hbm, ⟨15, _⟩ => ⟨S1x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S512x512, .f32⟩
  | .hbm, ⟨22, _⟩ => ⟨S1024x512, .f32⟩
  | .hbm, ⟨23, _⟩ => ⟨S1x512, .f32⟩
  | .hbm, ⟨24, _⟩ => ⟨S1024x512, .f32⟩
  | .hbm, ⟨25, _⟩ => ⟨S1024x512, .f32⟩
  | .hbm, ⟨26, _⟩ => ⟨S1024x512, .bf16⟩
  | .hbm, ⟨27, _⟩ => ⟨S1024x512, .f32⟩
  | .hbm, ⟨28, _⟩ => ⟨S1024x512, .f32⟩
  | .hbm, ⟨29, _⟩ => ⟨S1024x512, .bf16⟩
  | .hbm, ⟨30, _⟩ => ⟨S131072x512, .f32⟩
  | .hbm, ⟨31, _⟩ => ⟨S64x2048x512, .f32⟩
  | .local _ .vmem, ⟨0, _⟩ => ⟨S4096x1, .i32⟩
  | .local _ .vmem, ⟨1, _⟩ => ⟨S4096x1, .i32⟩
  | .local _ .vmem, ⟨2, _⟩ => ⟨S1024x512, .bf16⟩
  | .local _ .vmem, ⟨3, _⟩ => ⟨S1024x512, .bf16⟩
  | .local _ .vmem, ⟨4, _⟩ => ⟨S4096x512, .f32⟩
  | .local _ .vmem, ⟨5, _⟩ => ⟨S4096x512, .f32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64x2048 : S_.BroadcastsInDim S64x2048 (![] : Fin 0 → Fin S64x2048.rank)
  shapeCasts_S64x2048_S131072x1 : S64x2048.ShapeCasts S131072x1
  transposes_S512x1024_S1024x512_1_0 : S512x1024.Transposes [1, 0] S1024x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  transposes_S512x512_S512x512_1_0 : S512x512.Transposes [1, 0] S512x512
  bitsLt_bf16_f32 : FTy.bits .bf16 < FTy.bits .f32
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x512_S4096x512_0_0 : ∀ a, (![0, 0] : Fin 2 → Nat) a + S4096x512.size a ≤ S4096x512.size a
  h_S4096x512 : 0 < S4096x512.numel
  iota_S4096x256_d1_w32 : S4096x256.Iotas .tc 32 [1]
  broadcasts_S4096x1_S4096x256 : S4096x1.Broadcasts S4096x256
  natLt_1_32 : 1 < 32
  inb_S1024x512_S256x512_0_0 : ∀ a, (![0, 0] : Fin 2 → Nat) a + S256x512.size a ≤ S1024x512.size a
  h_S256x512 : 0 < S256x512.numel
  shapeCasts_S256x512_S256x512 : S256x512.ShapeCasts S256x512
  shapeCasts_S4096x512_S4096x512 : S4096x512.ShapeCasts S4096x512
  inb_S1024x512_S256x512_256_0 : ∀ a, (![256, 0] : Fin 2 → Nat) a + S256x512.size a ≤ S1024x512.size a
  inb_S1024x512_S256x512_512_0 : ∀ a, (![512, 0] : Fin 2 → Nat) a + S256x512.size a ≤ S1024x512.size a
  inb_S1024x512_S256x512_768_0 : ∀ a, (![768, 0] : Fin 2 → Nat) a + S256x512.size a ≤ S1024x512.size a
  shapeCasts_S131072x512_S64x2048x512 : S131072x512.ShapeCasts S64x2048x512
  dot_S1024x512_S512x512_S1024x512_1_0_0_1_n_n_wf : DotDims.WF S1024x512 S512x512 S1024x512 [1] [0] [0] [1] [] []
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S131072x1.size a
  hwx0_0 : ∀ i : grid0.Coords, EltTy.bits .i32 = 32 ∨ (Rect.block (s := S131072x1) S4096x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S131072x512.size a
  hwx0_3 : ∀ i : grid0.Coords, EltTy.bits .f32 = 32 ∨ (Rect.block (s := S131072x512) S4096x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_v1) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048 : Shape := ⟨2, ![64, 2048]⟩
abbrev S512x1024 : Shape := ⟨2, ![512, 1024]⟩
abbrev S512 : Shape := ⟨1, ![512]⟩
abbrev S512x512 : Shape := ⟨2, ![512, 512]⟩
abbrev S_ : Shape := ⟨0, ![]⟩
abbrev S1024x512 : Shape := ⟨2, ![1024, 512]⟩
abbrev S64x2048x1 : Shape := ⟨3, ![64, 2048, 1]⟩
abbrev S1 : Shape := ⟨1, ![1]⟩
abbrev S1x1x1 : Shape := ⟨3, ![1, 1, 1]⟩
abbrev S64x2048x512 : Shape := ⟨3, ![64, 2048, 512]⟩
abbrev S1x1x512 : Shape := ⟨3, ![1, 1, 512]⟩

abbrev nBuf : Space → Nat
  | .hbm => 43
  | .vmem => 0
  | .smem => 0
  | _ => 0

abbrev bufTy : (tb : Table) → Fin (tcTables nBuf tb) → BufTy
  | .hbm, ⟨0, _⟩ => ⟨S64x2048, .i32⟩
  | .hbm, ⟨1, _⟩ => ⟨S512x1024, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S_, .i32⟩
  | .hbm, ⟨6, _⟩ => ⟨S_, .i32⟩
  | .hbm, ⟨7, _⟩ => ⟨S64x2048, .i32⟩
  | .hbm, ⟨8, _⟩ => ⟨S64x2048, .i32⟩
  | .hbm, ⟨9, _⟩ => ⟨S1024x512, .f32⟩
  | .hbm, ⟨10, _⟩ => ⟨S_, .i32⟩
  | .hbm, ⟨11, _⟩ => ⟨S64x2048, .i32⟩
  | .hbm, ⟨12, _⟩ => ⟨S64x2048, .i1⟩
  | .hbm, ⟨13, _⟩ => ⟨S_, .i32⟩
  | .hbm, ⟨14, _⟩ => ⟨S64x2048, .i32⟩
  | .hbm, ⟨15, _⟩ => ⟨S64x2048, .i32⟩
  | .hbm, ⟨16, _⟩ => ⟨S64x2048, .i32⟩
  | .hbm, ⟨17, _⟩ => ⟨S64x2048x1, .i32⟩
  | .hbm, ⟨18, _⟩ => ⟨S1, .i32⟩
  | .hbm, ⟨19, _⟩ => ⟨S_, .i32⟩
  | .hbm, ⟨20, _⟩ => ⟨S64x2048x1, .i32⟩
  | .hbm, ⟨21, _⟩ => ⟨S64x2048x1, .i1⟩
  | .hbm, ⟨22, _⟩ => ⟨S1x1x1, .i32⟩
  | .hbm, ⟨23, _⟩ => ⟨S64x2048x1, .i32⟩
  | .hbm, ⟨24, _⟩ => ⟨S64x2048x1, .i1⟩
  | .hbm, ⟨25, _⟩ => ⟨S64x2048x1, .i1⟩
  | .hbm, ⟨26, _⟩ => ⟨S_, .i1⟩
  | .hbm, ⟨27, _⟩ => ⟨S64x2048, .i1⟩
  | .hbm, ⟨28, _⟩ => ⟨S64x2048x512, .f32⟩
  | .hbm, ⟨29, _⟩ => ⟨S64x2048x512, .i1⟩
  | .hbm, ⟨30, _⟩ => ⟨S_, .f32⟩
  | .hbm, ⟨31, _⟩ => ⟨S64x2048x512, .f32⟩
  | .hbm, ⟨32, _⟩ => ⟨S64x2048x512, .f32⟩
  | .hbm, ⟨33, _⟩ => ⟨S1x1x512, .f32⟩
  | .hbm, ⟨34, _⟩ => ⟨S64x2048x512, .f32⟩
  | .hbm, ⟨35, _⟩ => ⟨S64x2048x512, .f32⟩
  | .hbm, ⟨36, _⟩ => ⟨S_, .f32⟩
  | .hbm, ⟨37, _⟩ => ⟨S64x2048x512, .f32⟩
  | .hbm, ⟨38, _⟩ => ⟨S64x2048x512, .f32⟩
  | .hbm, ⟨39, _⟩ => ⟨S64x2048x512, .f32⟩
  | .hbm, ⟨40, _⟩ => ⟨S1x1x512, .f32⟩
  | .hbm, ⟨41, _⟩ => ⟨S64x2048x512, .f32⟩
  | .hbm, ⟨42, _⟩ => ⟨S64x2048x512, .f32⟩
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_v14 : Ref sig .tc := ⟨.hbm, 29, rfl⟩
abbrev main_call1_cst : Ref sig .tc := ⟨.hbm, 30, rfl⟩
abbrev main_call1_v15 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_call2_cst : Ref sig .tc := ⟨.hbm, 36, rfl⟩
abbrev main_call2_v0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  transposes_S512x1024_S1024x512_1_0 : S512x1024.Transposes [1, 0] S1024x512
  bcast_S64x2048_S64x2048x1_0_1 : S64x2048.BroadcastsInDim S64x2048x1 (![0, 1] : Fin 2 → Fin S64x2048x1.rank)
  bcast_S_S64x2048x1 : S_.BroadcastsInDim S64x2048x1 (![] : Fin 0 → Fin S64x2048x1.rank)
  bcast_S1_S1x1x1_2 : S1.BroadcastsInDim S1x1x1 (![2] : Fin 1 → Fin S1x1x1.rank)
  bcast_S1x1x1_S64x2048x1_0_1_2 : S1x1x1.BroadcastsInDim S64x2048x1 (![0, 1, 2] : Fin 3 → Fin S64x2048x1.rank)
  reducesTo_S64x2048x1_S64x2048_d2 : S64x2048x1.ReducesTo [2] S64x2048
  h_S_ : 0 < S_.numel
  bcast_S64x2048_S64x2048x512_0_1 : S64x2048.BroadcastsInDim S64x2048x512 (![0, 1] : Fin 2 → Fin S64x2048x512.rank)
  bcast_S_S64x2048x512 : S_.BroadcastsInDim S64x2048x512 (![] : Fin 0 → Fin S64x2048x512.rank)
  bcast_S512_S1x1x512_2 : S512.BroadcastsInDim S1x1x512 (![2] : Fin 1 → Fin S1x1x512.rank)
  bcast_S1x1x512_S64x2048x512_0_1_2 : S1x1x512.BroadcastsInDim S64x2048x512 (![0, 1, 2] : Fin 3 → Fin S64x2048x512.rank)
  gather_S1024x512_S64x2048x1_S64x2048x512_2_0_n_n_0_2_1512_wf : GatherDims.WF S1024x512 S64x2048x1 S64x2048x512 [2] [0] [] [0] [] 2 ![1, 512]
  dot_S64x2048x512_S512x512_S64x2048x512_2_1_01_0_n_n_wf : DotDims.WF S64x2048x512 S512x512 S64x2048x512 [2] [1] [0, 1] [0] [] []

variable [Facts₀]

def gather_S1024x512_S64x2048x1_S64x2048x512_2_0_n_n_0_2_1512 : GatherDims S1024x512 S64x2048x1 S64x2048x512 where
  offsetDims := [2]
  collapsedSliceDims := [0]
  operandBatchingDims := []
  startIndicesBatchingDims := []
  startIndexMap := [0]
  indexVectorDim := 2
  sliceSizes := ![1, 512]
  wf := gather_S1024x512_S64x2048x1_S64x2048x512_2_0_n_n_0_2_1512_wf
def dot_S64x2048x512_S512x512_S64x2048x512_2_1_01_0_n_n : DotDims S64x2048x512 S512x512 S64x2048x512 where
  lhsContracting := [2]
  rhsContracting := [1]
  lhsNonContracting := [0, 1]
  rhsNonContracting := [0]
  lhsBatch := []
  rhsBatch := []
  wf := dot_S64x2048x512_S512x512_S64x2048x512_2_1_01_0_n_n_wf

class Facts : Prop extends Facts₀ where

variable [Facts]
-- ==== Proof.Spec.lean ====
/-
  The specification both programs are compared with, and the algebra that joins the kernel's arrangement to it.

  A token id selects a row of the per-state table
      T[i, f] = Σ_e max (W1[e, i] + b1[e]) 0 · W2[f, e] + b2[f]        (i < 1024, f < 512)
  and the result at (b, s, f) is T[row (x[b, s]), f], the id read signed and clamped to [0, 1023].
  The kernel reaches that row by four one-hot products of 256 columns each against the table and against the
  residual table T - T; on the extended reals the residual vanishes exactly where T is a real number, which is
  where finiteness of the inputs is used.
-/
import Idealize.ShloMosaic.PureOps.Ideal
import Idealize.ShloMosaic.Lib.ValueIdx

noncomputable section

namespace Cert.Spec

open Idealize.ShloMosaic Idealize.ShloMosaic.ValueIdx

abbrev SX : Shape := ⟨2, ![64, 2048]⟩
abbrev SW1 : Shape := ⟨2, ![512, 1024]⟩
abbrev SB : Shape := ⟨1, ![512]⟩
abbrev SW2 : Shape := ⟨2, ![512, 512]⟩
abbrev SFlat : Shape := ⟨2, ![131072, 512]⟩
abbrev SOut : Shape := ⟨3, ![64, 2048, 512]⟩

/-- Every entry of the array is a real number. -/
def IsReal {s : Shape} (a : s.Idx → EReal) : Prop := ∀ j, ∃ r : ℝ, a j = (r : EReal)

/-- The table row a token id selects: the id read as a signed integer, clamped to [0, 1023]. -/
def row (v : BitVec 32) : Fin 1024 := ⟨(min (max v.toInt 0) 1023).toNat, by omega⟩

/-- The same row as a word. -/
def roww (v : BitVec 32) : BitVec 32 := BitVec.ofNat 32 (row v).val

/-- The per-state table. -/
def tbl (W1 : SW1.Idx → EReal) (b1 : SB.Idx → EReal) (W2 : SW2.Idx → EReal) (b2 : SB.Idx → EReal)
    (i : Fin 1024) (f : Fin 512) : EReal :=
  (∑ e : Fin 512, max (W1 (ix2 e i) + b1 (ix1 e)) 0 * W2 (ix2 f e)) + b2 (ix1 f)

/-- Flat token number r = 2048·b + s back to (b, s). -/
def tok (r : Fin 131072) : SX.Idx :=
  ix2 (⟨r.val / 2048, by have := r.isLt; omega⟩ : Fin 64) (⟨r.val % 2048, by omega⟩ : Fin 2048)

/-- The result over flat token numbers. -/
def flat (x : SX.Idx → BitVec 32) (W1 : SW1.Idx → EReal) (b1 : SB.Idx → EReal) (W2 : SW2.Idx → EReal) (b2 : SB.Idx → EReal) :
    SFlat.Idx → EReal :=
  fun j => tbl W1 b1 W2 b2 (row (x (tok (j 0)))) (j 1)

/-- The result. -/
def out (x : SX.Idx → BitVec 32) (W1 : SW1.Idx → EReal) (b1 : SB.Idx → EReal) (W2 : SW2.Idx → EReal) (b2 : SB.Idx → EReal) :
    SOut.Idx → EReal :=
  fun j => tbl W1 b1 W2 b2 (row (x (ix2 (j 0) (j 1)))) (j 2)

/-- One entry of the one-hot row the kernel builds for the 256 table rows from `base` on. -/
def hot (v : BitVec 32) (base : ℕ) (k : Fin 256) : EReal := if v = BitVec.ofNat 32 (base + k.val) then 1 else 0

theorem row_val_lt (v : BitVec 32) : (roww v).toNat < 1024 := by
  have h := (row v).isLt
  unfold roww
  rw [BitVec.toNat_ofNat]
  omega

theorem roww_toNat (v : BitVec 32) : (roww v).toNat = (row v).val := by
  have h := (row v).isLt
  unfold roww
  rw [BitVec.toNat_ofNat]
  omega

/-- The embedding of the reals is monotone, so it commutes with max. -/
theorem coe_max_real (a b : ℝ) : ((max a b : ℝ) : EReal) = max (a : EReal) (b : EReal) :=
  EReal.coe_strictMono.monotone.map_max

/-- A finite sum of real numbers, read in the extended reals, is a real number. -/
theorem sum_coe_real {ι : Type*} (s : Finset ι) (g : ι → ℝ) : ∃ r : ℝ, ∑ e ∈ s, (g e : EReal) = (r : EReal) := by
  classical
  induction s using Finset.induction_on with
  | empty => exact ⟨0, by rw [Finset.sum_empty, EReal.coe_zero]⟩
  | insert a s ha ih =>
    obtain ⟨r, hr⟩ := ih
    exact ⟨g a + r, by rw [Finset.sum_insert ha, hr, EReal.coe_add]⟩

/-- With real inputs every table entry is a real number. -/
theorem tbl_real {W1 : SW1.Idx → EReal} {b1 : SB.Idx → EReal} {W2 : SW2.Idx → EReal} {b2 : SB.Idx → EReal}
    (h1 : IsReal W1) (h2 : IsReal b1) (h3 : IsReal W2) (h4 : IsReal b2) (i : Fin 1024) (f : Fin 512) :
    ∃ r : ℝ, tbl W1 b1 W2 b2 i f = (r : EReal) := by
  choose w1 hw1 using h1
  choose c1 hc1 using h2
  choose w2 hw2 using h3
  choose c2 hc2 using h4
  -- each summand max (W1 + b1) 0 · W2 is the image of the same expression over ℝ
  obtain ⟨r, hr⟩ := sum_coe_real (Finset.univ : Finset (Fin 512))
    (fun e => max (w1 (ix2 e i) + c1 (ix1 e)) 0 * w2 (ix2 f e))
  refine ⟨r + c2 (ix1 f), ?_⟩
  unfold tbl
  rw [EReal.coe_add, ← hr, hc2]
  congr 1
  apply Finset.sum_congr rfl
  intro e _
  rw [hw1, hc1, hw2, EReal.coe_mul, coe_max_real, EReal.coe_add, EReal.coe_zero]

/-- A word below 2^32 equals the word of a number exactly when its value is that number. -/
theorem eq_ofNat_iff (v : BitVec 32) (n : ℕ) (hn : n < 1024) : v = BitVec.ofNat 32 n ↔ v.toNat = n := by
  constructor
  · intro h
    rw [h, BitVec.toNat_ofNat]
    omega
  · intro h
    apply BitVec.eq_of_toNat_eq
    rw [BitVec.toNat_ofNat]
    omega

/-- A one-hot row times a column picks the column's entry when the word falls in the chunk, and is 0 otherwise. -/
theorem hot_sum (v : BitVec 32) (base : ℕ) (hb : base + 256 ≤ 1024) (hv : v.toNat < 1024) (a : Fin 256 → EReal) :
    ∑ k : Fin 256, hot v base k * a k
      = if h : base ≤ v.toNat ∧ v.toNat < base + 256 then a ⟨v.toNat - base, by omega⟩ else 0 := by
  have hk : ∀ k : Fin 256, base + k.val < 1024 := fun k => by have := k.isLt; omega
  split_ifs with h
  · -- exactly one entry of the one-hot row is 1: the one at v - base
    rw [Finset.sum_eq_single (⟨v.toNat - base, by omega⟩ : Fin 256)]
    · have e : v = BitVec.ofNat 32 (base + (v.toNat - base)) :=
        (eq_ofNat_iff v _ (by omega)).2 (by omega)
      unfold hot
      rw [if_pos e, one_mul]
    · intro k _ hne
      have e : ¬ v = BitVec.ofNat 32 (base + k.val) := by
        intro hv'
        have h' := (eq_ofNat_iff v _ (hk k)).1 hv'
        apply hne
        apply Fin.ext
        show k.val = v.toNat - base
        omega
      unfold hot
      rw [if_neg e, zero_mul]
    · intro h'
      exact absurd (Finset.mem_univ _) h'
  · -- the word is outside the chunk: the whole row is 0
    apply Finset.sum_eq_zero
    intro k _
    have e : ¬ v = BitVec.ofNat 32 (base + k.val) := by
      intro hv'
      have h' := (eq_ofNat_iff v _ (hk k)).1 hv'
      have := k.isLt
      apply h
      omega
    unfold hot
    rw [if_neg e, zero_mul]

/-- The kernel's accumulation: from zero, for each of the four chunks, add the one-hot product with the table chunk and
    then with the residual chunk. Where the selected entry is real the total is that entry. -/
theorem acc_eq (v : BitVec 32) (hv : v.toNat < 1024) (T : Fin 1024 → EReal) (hT : ∃ r : ℝ, T ⟨v.toNat, hv⟩ = (r : EReal)) :
    ((((((((0 : EReal)
      + ∑ k : Fin 256, hot v 0 k * T ⟨0 + k.val, by omega⟩)
      + ∑ k : Fin 256, hot v 0 k * (T ⟨0 + k.val, by omega⟩ - T ⟨0 + k.val, by omega⟩))
      + ∑ k : Fin 256, hot v 256 k * T ⟨256 + k.val, by omega⟩)
      + ∑ k : Fin 256, hot v 256 k * (T ⟨256 + k.val, by omega⟩ - T ⟨256 + k.val, by omega⟩))
      + ∑ k : Fin 256, hot v 512 k * T ⟨512 + k.val, by omega⟩)
      + ∑ k : Fin 256, hot v 512 k * (T ⟨512 + k.val, by omega⟩ - T ⟨512 + k.val, by omega⟩))
      + ∑ k : Fin 256, hot v 768 k * T ⟨768 + k.val, by omega⟩)
      + ∑ k : Fin 256, hot v 768 k * (T ⟨768 + k.val, by omega⟩ - T ⟨768 + k.val, by omega⟩)
    = T ⟨v.toNat, hv⟩ := by
  obtain ⟨r, hr⟩ := hT
  -- the entry a chunk selects is the entry at v
  have sel : ∀ (b : ℕ) (h' : b + (v.toNat - b) < 1024), b ≤ v.toNat → T ⟨b + (v.toNat - b), h'⟩ = (r : EReal) := by
    intro b h' hb
    have e : (⟨b + (v.toNat - b), h'⟩ : Fin 1024) = ⟨v.toNat, hv⟩ := Fin.ext (by show b + (v.toNat - b) = v.toNat; omega)
    rw [e, hr]
  -- a real number minus itself is 0
  have rr : (r : EReal) - (r : EReal) = 0 := by rw [← EReal.coe_sub, sub_self, EReal.coe_zero]
  rw [hot_sum v 0 (by omega) hv, hot_sum v 0 (by omega) hv, hot_sum v 256 (by omega) hv, hot_sum v 256 (by omega) hv,
    hot_sum v 512 (by omega) hv, hot_sum v 512 (by omega) hv, hot_sum v 768 (by omega) hv, hot_sum v 768 (by omega) hv, hr]
  by_cases c0 : v.toNat < 256
  · have p0 : 0 ≤ v.toNat ∧ v.toNat < 0 + 256 := by omega
    have n1 : ¬ (256 ≤ v.toNat ∧ v.toNat < 256 + 256) := by omega
    have n2 : ¬ (512 ≤ v.toNat ∧ v.toNat < 512 + 256) := by omega
    have n3 : ¬ (768 ≤ v.toNat ∧ v.toNat < 768 + 256) := by omega
    simp only [dif_pos p0, dif_neg n1, dif_neg n2, dif_neg n3]
    rw [sel 0 _ (by omega), rr]
    simp only [add_zero, zero_add]
  · by_cases c1 : v.toNat < 512
    · have n0 : ¬ (0 ≤ v.toNat ∧ v.toNat < 0 + 256) := by omega
      have p1 : 256 ≤ v.toNat ∧ v.toNat < 256 + 256 := by omega
      have n2 : ¬ (512 ≤ v.toNat ∧ v.toNat < 512 + 256) := by omega
      have n3 : ¬ (768 ≤ v.toNat ∧ v.toNat < 768 + 256) := by omega
      simp only [dif_neg n0, dif_pos p1, dif_neg n2, dif_neg n3]
      rw [sel 256 _ (by omega), rr]
      simp only [add_zero, zero_add]
    · by_cases c2 : v.toNat < 768
      · have n0 : ¬ (0 ≤ v.toNat ∧ v.toNat < 0 + 256) := by omega
        have n1 : ¬ (256 ≤ v.toNat ∧ v.toNat < 256 + 256) := by omega
        have p2 : 512 ≤ v.toNat ∧ v.toNat < 512 + 256 := by omega
        have n3 : ¬ (768 ≤ v.toNat ∧ v.toNat < 768 + 256) := by omega
        simp only [dif_neg n0, dif_neg n1, dif_pos p2, dif_neg n3]
        rw [sel 512 _ (by omega), rr]
        simp only [add_zero, zero_add]
      · have n0 : ¬ (0 ≤ v.toNat ∧ v.toNat < 0 + 256) := by omega
        have n1 : ¬ (256 ≤ v.toNat ∧ v.toNat < 256 + 256) := by omega
        have n2 : ¬ (512 ≤ v.toNat ∧ v.toNat < 512 + 256) := by omega
        have p3 : 768 ≤ v.toNat ∧ v.toNat < 768 + 256 := by omega
        simp only [dif_neg n0, dif_neg n1, dif_neg n2, dif_pos p3]
        rw [sel 768 _ (by omega), rr]
        simp only [add_zero, zero_add]

end Cert.Spec

end
-- ==== Proof.PreFacts.lean ====
/-
  What the precondition says of the inputs: every weight and bias entry is a real number (its absolute value is below +∞),
  and every token id, read signed, is at most 1023.
-/
import proofs.«417835_j26869315403945_3_alg».proof.Pre_finite_inputs
import proofs.«417835_j26869315403945_3_alg».proof.Proof.Spec
import Idealize.ShloMosaic.PureOps.Ideal
import Idealize.ShloMosaic.Lib.ReduceAll
import Idealize.ShloMosaic.Lib.StableHlo.Predicate

noncomputable section

namespace Cert.PreFacts

open Idealize.ShloMosaic Cert.Pre_finite_inputs

variable [Cert.Pre_finite_inputs.Facts]

/-- The result shape of a reduction over every axis has exactly one index. -/
instance : Subsingleton S_.Idx := ⟨fun a b => funext fun d => d.elim0⟩

/-- The word 0x7F800000 is the f32 pattern of +∞. -/
theorem inf_bits : (Ideal.ofBits .f32 0x7F800000#32 : EReal) = ⊤ := by
  simp [Ideal.ofBits, Ideal.ieee]

/-- An extended real whose absolute value max v (-v) lies strictly below +∞ is a real number:
    at +∞ and at -∞ the absolute value is +∞ itself. -/
theorem real_of_abs_lt_top (v : EReal) (e : Ideal.cmp .olt (max v (-v)) ⊤ = 1#1) : ∃ r : ℝ, v = (r : EReal) := by
  induction v using EReal.rec with
  | bot => simp [Ideal.cmp] at e
  | coe r => exact ⟨r, rfl⟩
  | top => simp [Ideal.cmp] at e

/-- One element of the comparison |a| < +∞ against the broadcast scalar +∞: the entry is a real number. -/
theorem real_of_elem {s : Shape} (hb : S_.BroadcastsInDim s (![] : Fin 0 → Fin s.rank)) (a : FVec Ideal s .f32) (i : s.Idx)
    (e : cmpf CmpFPredicate.olt (Host.absf a) (broadcastInDim s ![] hb (constant S_ FTy.f32 0x7F800000#32)) i = 1#1) :
    ∃ r : ℝ, a i = (r : EReal) := by
  simp only [cmpf, Host.absf, broadcastInDim, constant] at e
  have e' : Ideal.cmp .olt (max (a i) (-(a i))) (Ideal.ofBits .f32 0x7F800000#32) = 1#1 := e
  rw [inf_bits] at e'
  exact real_of_abs_lt_top _ e'

/-- One element of the signed comparison x ≤ 1023 against the broadcast scalar 1023: the id, read signed
    (it may be negative), is at most 1023. -/
theorem le_of_elem (hb : S_.BroadcastsInDim S64x2048 (![] : Fin 0 → Fin S64x2048.rank)) (x : IVec S64x2048 32) (j : S64x2048.Idx)
    (e : cmpi CmpIPredicate.sle x (broadcastInDim S64x2048 ![] hb (constantI S_ 32 1023#32)) j = 1#1) :
    (x j).toInt ≤ 1023 := by
  simp only [cmpi, broadcastInDim, constantI] at e
  have := IntOp.cmpi_sle.1 e
  have h1023 : (1023#32 : BitVec 32).toInt = 1023 := by decide
  omega

/-- The precondition read back: its single word is the conjunction of five reductions by "and" over all axes, one per
    float input (|a| < +∞ at every entry) and one for the ids (x ≤ 1023 signed at every entry); each reduction being 1
    gives its comparison at every index. -/
theorem decode (x : IVec S64x2048 32) (W1 : FVec Ideal S512x1024 .f32) (b1 : FVec Ideal S512 .f32)
    (W2 : FVec Ideal S512x512 .f32) (b2 : FVec Ideal S512 .f32)
    (h : Cert.Pre_finite_inputs.fn (F := Ideal) x W1 b1 W2 b2 = fun _ => 1#1) :
    Cert.Spec.IsReal W1 ∧ Cert.Spec.IsReal b1 ∧ Cert.Spec.IsReal W2 ∧ Cert.Spec.IsReal b2 ∧ ∀ j, (x j).toInt ≤ 1023 := by
  have e := congrFun h ValueIdx.ix0
  dsimp only [Cert.Pre_finite_inputs.fn, Cert.Pre_finite_inputs.fn_part1] at e
  simp only [andi, IntOp.andi_eq_one] at e
  obtain ⟨⟨⟨⟨h1, h2⟩, h3⟩, h4⟩, h5⟩ := e
  refine ⟨fun i => ?_, fun i => ?_, fun i => ?_, fun i => ?_, fun j => ?_⟩
  · exact real_of_elem _ W1 i (Host.reduce_andi_all _ _ _ _ _ h1 i)
  · exact real_of_elem _ b1 i (Host.reduce_andi_all _ _ _ _ _ h2 i)
  · exact real_of_elem _ W2 i (Host.reduce_andi_all _ _ _ _ _ h3 i)
  · exact real_of_elem _ b2 i (Host.reduce_andi_all _ _ _ _ _ h4 i)
  · exact le_of_elem _ x j (Host.reduce_andi_all _ _ _ _ _ h5 j)

end Cert.PreFacts

end
-- ==== Proof.KernelHost.lean ====
/-
  What the host lines before the kernel leave in the three arrays its windows read: the token ids clamped to
  [0, 1023] and laid out one per row; the table T; and the residual table T - T.
-/
import proofs.«417835_j26869315403945_3_alg».proof.Proof.Gen.KernelIdeal.Frame
import proofs.«417835_j26869315403945_3_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.StackMember
import Idealize.ShloMosaic.Lib.ValueLayout

noncomputable section

namespace Cert.KernelIdeal.KHost

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The five argument arrays as launched, on core `c`. -/
abbrev X (c : Dev nD) : Cert.Spec.SX.Idx → BitVec 32 := m ((c.tc : Thread nD τ).loc main_arg0)
abbrev W1 (c : Dev nD) : Cert.Spec.SW1.Idx → EReal := m ((c.tc : Thread nD τ).loc main_arg1)
abbrev B1 (c : Dev nD) : Cert.Spec.SB.Idx → EReal := m ((c.tc : Thread nD τ).loc main_arg2)
abbrev W2 (c : Dev nD) : Cert.Spec.SW2.Idx → EReal := m ((c.tc : Thread nD τ).loc main_arg3)
abbrev B2 (c : Dev nD) : Cert.Spec.SB.Idx → EReal := m ((c.tc : Thread nD τ).loc main_arg4)

/-! ## The token ids -/

/-- Clamping a word to [0, 1023] as signed integers — the larger of 0 and v, then the smaller of 1023 and that — is the
    selected row as a word. Three cases on the signed value: below 0 the result is 0, above 1023 it is 1023, and in
    between the word is its own value. -/
theorem clip_eq (v : BitVec 32) : IntOp.minsi 1023#32 (IntOp.maxsi 0#32 v) = Cert.Spec.roww v := by
  have hi := BitVec.toInt_eq_toNat_cond v
  have hlt := v.isLt
  have h0 : (0#32 : BitVec 32).toInt = 0 := by decide
  have h1 : (1023#32 : BitVec 32).toInt = 1023 := by decide
  unfold IntOp.minsi IntOp.maxsi Cert.Spec.roww Cert.Spec.row
  simp only [BitVec.slt, decide_eq_true_eq, h0, h1]
  apply BitVec.eq_of_toNat_eq
  rw [BitVec.toNat_ofNat]
  by_cases hv : v.toInt < 0
  · rw [if_pos hv, h0, if_neg (by omega)]
    show (0 : ℕ) = _
    have : (min (max v.toInt 0) 1023).toNat = 0 := by omega
    rw [this]
  · rw [if_neg hv]
    by_cases hw : 1023 < v.toInt
    · rw [if_pos hw]
      have : (min (max v.toInt 0) 1023).toNat = 1023 := by omega
      rw [this]; rfl
    · rw [if_neg hw]
      have : (min (max v.toInt 0) 1023).toNat = v.toNat := by
        split at hi <;> omega
      rw [this]; omega

/-- Window 0's array as the host operations leave it: the ids, the larger of 0 and each, the smaller of 1023 and that,
    laid out again as one id per row. -/
theorem v1_eq (c : Dev nD) : (V (F := Ideal) m c main_v1 : S131072x1.Idx → BitVec 32) =
    shapeCast S131072x1
      (minsi (broadcastInDim S64x2048 ![] bcast_S_S64x2048 (constantI S_ 32 1023#32))
        (maxsi (broadcastInDim S64x2048 ![] bcast_S_S64x2048 (constantI S_ 32 0#32)) (X m c)))
      shapeCasts_S64x2048_S131072x1 := by
  dsimp only [Gen.V, Gen.V0]
  simp only [Gen.hostOps0, Gen.hostOps0_1, Gen.hostOps0_2, List.flatten_cons, List.flatten_nil, List.append_nil,
    List.cons_append, List.nil_append]
  after_results
  all_goals rfl

/-! ## The table -/

/-- The dimension record of the table's product is the plain rows-by-columns one. -/
theorem dot_plain : dot_S1024x512_S512x512_S1024x512_1_0_0_1_n_n = DotDims.plain 1024 512 512 := rfl

/-- A vector laid along the columns of a [1024, 512] rectangle reads, at (p, q), its entry q. -/
theorem brow (v : S512.Idx → EReal) (p : Fin 1024) (q : Fin 512) :
    broadcastInDim S1024x512 ![0, 1] bcast_S1x512_S1024x512_0_1 (broadcastInDim S1x512 ![1] bcast_S512_S1x512_1 v) (ix2 p q)
      = v (ix1 q) := by
  refine (broadcastInDim_apply _ bcast_S1x512_S1024x512_0_1 _ (ix2 p q) (ix2 (0 : Fin 1) q) fun a => ?_).trans
    (broadcastInDim_apply _ bcast_S512_S1x512_1 v _ (ix1 q) fun a => ?_)
  · match a with
    | ⟨0, _⟩ => rfl
    | ⟨1, _⟩ => rfl
  · match a with
    | ⟨0, _⟩ => rfl

/-- The table as the host operations before the kernel compute it: W1 transposed plus b1 along the columns, rectified,
    times W2 transposed, plus b2 along the columns. -/
abbrev hostTbl (w1 : FVec Ideal S512x1024 .f32) (b1 : FVec Ideal S512 .f32) (w2 : FVec Ideal S512x512 .f32)
    (b2 : FVec Ideal S512 .f32) : FVec Ideal S1024x512 .f32 :=
  addf
    (Host.dotGeneral dot_S1024x512_S512x512_S1024x512_1_0_0_1_n_n none
      (maximumf
        (addf (transpose S1024x512 [1, 0] w1 transposes_S512x1024_S1024x512_1_0)
          (broadcastInDim S1024x512 ![0, 1] bcast_S1x512_S1024x512_0_1 (broadcastInDim S1x512 ![1] bcast_S512_S1x512_1 b1)))
        (broadcastInDim S1024x512 ![] bcast_S_S1024x512 (constant (F := Ideal) S_ FTy.f32 0x00000000#32)))
      (transpose S512x512 [1, 0] w2 transposes_S512x512_S512x512_1_0))
    (broadcastInDim S1024x512 ![0, 1] bcast_S1x512_S1024x512_0_1 (broadcastInDim S1x512 ![1] bcast_S512_S1x512_1 b2))

/-- Read at (p, q) it is the specification's table entry: the product is the sum over the contracted coordinate e of
    its operands' entries at (p, e) and (e, q); the left one is max (W1[e, p] + b1[e]) 0, the right one W2[q, e]. -/
theorem hostTbl_apply (w1 : FVec Ideal S512x1024 .f32) (b1 : FVec Ideal S512 .f32) (w2 : FVec Ideal S512x512 .f32)
    (b2 : FVec Ideal S512 .f32) (p : Fin 1024) (q : Fin 512) :
    hostTbl w1 b1 w2 b2 (ix2 p q) = Cert.Spec.tbl w1 b1 w2 b2 p q := by
  unfold Cert.Spec.tbl hostTbl
  rw [addf_apply, brow, dot_plain, StackMember.dotGeneral_plain_apply]
  congr 1
  refine Finset.sum_congr rfl fun e _ => ?_
  rw [maximumf_apply, addf_apply, brow, transpose_ix2_apply, transpose_ix2_apply]
  congr 2
  rw [broadcastInDim_apply _ bcast_S_S1024x512 _ (ix2 p e) ix0 (fun a => a.elim0), constant_apply, Ideal.ofBits_zero_f32]

/-- Window 1's array as the host operations leave it: the table, its change of float format the identity. -/
theorem v13_eq (c : Dev nD) : (V (F := Ideal) m c main_v13 : S1024x512.Idx → EReal) =
    truncf FTy.bf16 (hostTbl (W1 m c) (B1 m c) (W2 m c) (B2 m c)) bitsLt_bf16_f32 := by
  dsimp only [Gen.V, Gen.V0]
  simp only [Gen.hostOps0, Gen.hostOps0_1, Gen.hostOps0_2, List.flatten_cons, List.flatten_nil, List.append_nil,
    List.cons_append, List.nil_append]
  after_results

/-- Window 2's array as the host operations leave it: the table minus the table taken through two changes of float
    format, through one more. -/
theorem v16_eq (c : Dev nD) : (V (F := Ideal) m c main_v16 : S1024x512.Idx → EReal) =
    truncf FTy.bf16
      (subf (hostTbl (W1 m c) (B1 m c) (W2 m c) (B2 m c))
        (extf FTy.f32 (truncf FTy.bf16 (hostTbl (W1 m c) (B1 m c) (W2 m c) (B2 m c)) bitsLt_bf16_f32) bitsLt_bf16_f32))
      bitsLt_bf16_f32 := by
  dsimp only [Gen.V, Gen.V0]
  simp only [Gen.hostOps0, Gen.hostOps0_1, Gen.hostOps0_2, List.flatten_cons, List.flatten_nil, List.append_nil,
    List.cons_append, List.nil_append]
  after_results

/-! ## The three arrays -/

/-- Window 0's array: row r holds token r's id clamped to [0, 1023]. -/
theorem idx_eq (c : Dev nD) (j : S131072x1.Idx) :
    (V (F := Ideal) m c main_v1 : S131072x1.Idx → BitVec 32) j = Cert.Spec.roww (X m c (Cert.Spec.tok (j 0))) := by
  -- row r of the [131072, 1] layout and entry (r / 2048, r % 2048) of the [64, 2048] one sit at the same row-major position
  rw [v1_eq, shapeCast_apply _ shapeCasts_S64x2048_S131072x1 j (Cert.Spec.tok (j 0)) (by
    rw [Shape.rowMajor_val_two, Shape.rowMajor_val_two]
    have h1 : (j 1).val < 1 := idx2_lt1 j
    show (j 0).val / 2048 * 2048 + (j 0).val % 2048 = (j 0).val * 1 + (j 1).val
    omega)]
  exact clip_eq _

/-- Window 1's array is the table. -/
theorem thi_eq (c : Dev nD) (j : S1024x512.Idx) :
    (V (F := Ideal) m c main_v13 : S1024x512.Idx → EReal) j = Cert.Spec.tbl (W1 m c) (B1 m c) (W2 m c) (B2 m c) (j 0) (j 1) := by
  obtain ⟨p, q, rfl⟩ : ∃ (p : Fin 1024) (q : Fin 512), j = ix2 p q := ⟨j 0, j 1, eq_ix2 j⟩
  rw [v13_eq, truncf_apply]
  exact hostTbl_apply _ _ _ _ p q

/-- Window 2's array is the table minus itself. -/
theorem tlo_eq (c : Dev nD) (j : S1024x512.Idx) :
    (V (F := Ideal) m c main_v16 : S1024x512.Idx → EReal) j
      = Cert.Spec.tbl (W1 m c) (B1 m c) (W2 m c) (B2 m c) (j 0) (j 1) - Cert.Spec.tbl (W1 m c) (B1 m c) (W2 m c) (B2 m c) (j 0) (j 1) := by
  obtain ⟨p, q, rfl⟩ : ∃ (p : Fin 1024) (q : Fin 512), j = ix2 p q := ⟨j 0, j 1, eq_ix2 j⟩
  rw [v16_eq, truncf_apply, subf_apply, extf_apply, truncf_apply, hostTbl_apply]

end Cert.KernelIdeal.KHost

end
-- ==== Proof.KernelBody.lean ====
/-
  What the kernel body leaves in the output block at grid point t: row p of the block is the table row selected by
  token 4096·t + p.

  The body zeroes the block and then, for each of four chunks of 256 table rows, adds to it the product of a one-hot
  matrix with the chunk of the table and then with the chunk of the residual table, each time loading the block back and
  storing the sum over the whole block. So the block ends at the last store's value, and each load reads the store
  before it: nine values in a chain. At entry (p, f) each product contributes
      Σ_k [id_p = base + k] · chunk[k, f],
  the one-hot row of the id in row p against column f. With the id in [0, 1023] exactly one chunk holds it, the table's
  term there is T[id, f] and the residual's is T[id, f] − T[id, f], which is 0 because the entry is a real number; every
  other entry is multiplied by 0. The id is the clamped id of token 4096·t + p because point t's block of the id column
  starts at row 4096·t, and both tables are read whole at every point.
-/
import proofs.«417835_j26869315403945_3_alg».proof.Proof.KernelHost

noncomputable section
namespace Cert.KernelIdeal.KBody
open Idealize.ShloMosaic Idealize.ShloMosaic.TcCoe Idealize.SL.Sem Idealize.ShloMosaic.ValueIdx
open Cert.KernelIdeal Cert.KernelIdeal.Gen Cert.KernelIdeal.KHost

/-- The body's one product shape: [4096, 256] · [256, 512], contracting the 256. -/
abbrev D := dot_S4096x256_S256x512_S4096x512_1_0_0_1_n_n

theorem lhs_0 (j : S4096x512.Idx) (k : D.contr.Idx) : (D.lhsIdx j k 0 : ℕ) = j 0 := by
  simp [DotDims.lhsIdx, D, dot_S4096x256_S256x512_S4096x512_1_0_0_1_n_n]; rfl
theorem lhs_1 (j : S4096x512.Idx) (k : D.contr.Idx) : (D.lhsIdx j k 1 : ℕ) = k ⟨0, by decide⟩ := by
  simp [DotDims.lhsIdx, D, dot_S4096x256_S256x512_S4096x512_1_0_0_1_n_n]; rfl
theorem rhs_0 (j : S4096x512.Idx) (k : D.contr.Idx) : (D.rhsIdx j k 0 : ℕ) = k ⟨0, by decide⟩ := by
  simp [DotDims.rhsIdx, D, dot_S4096x256_S256x512_S4096x512_1_0_0_1_n_n]; rfl
theorem rhs_1 (j : S4096x512.Idx) (k : D.contr.Idx) : (D.rhsIdx j k 1 : ℕ) = j 1 := by
  simp [DotDims.rhsIdx, D, dot_S4096x256_S256x512_S4096x512_1_0_0_1_n_n]; rfl

/-- One accumulation step at an entry: the block read back plus the product's sum over the chunk's 256 rows. -/
theorem step_apply (oh : FVec Ideal S4096x256 .bf16) (blk : Vec Ideal S256x512 .bf16) (acc : Vec Ideal S4096x512 .f32)
    (p : Fin 4096) (f : Fin 512) :
    (addf (shapeCast S4096x512 acc shapeCasts_S4096x512_S4096x512 : FVec Ideal S4096x512 .f32)
        (matmul D none oh (shapeCast S256x512 blk shapeCasts_S256x512_S256x512 : FVec Ideal S256x512 .bf16)
          (constant S4096x512 .f32 0x00000000#32))
      : FVec Ideal S4096x512 .f32) (ix2 p f)
      = acc (ix2 p f) + ∑ k : Fin 256, oh (ix2 p k) * blk (ix2 k f) := by
  rw [addf_apply, shapeCast_self, shapeCast_self]
  refine congrArg (acc (ix2 p f) + ·) ?_
  refine (Ideal.matmul_constant_zero_apply D none oh blk (ix2 p f)).trans ?_
  rw [← Equiv.sum_comp (contrEquiv1 D 256 rfl rfl).symm]
  refine Finset.sum_congr rfl fun k _ => ?_
  congr 1
  · refine congrArg oh (Shape.idx_ext₂ ?_ ?_)
    · exact lhs_0 _ _
    · exact (lhs_1 _ _).trans (contrEquiv1_symm_val D 256 rfl rfl k)
  · refine congrArg blk (Shape.idx_ext₂ ?_ ?_)
    · exact (rhs_0 _ _).trans (contrEquiv1_symm_val D 256 rfl rfl k)
    · exact rhs_1 _ _

/-- A one-bit word widened and read as a signed integer is 1 or 0. -/
theorem bit_real (a b : BitVec 32) :
    (((((IntOp.cmpi .eq a b).setWidth 32).toInt : ℤ) : ℝ) : EReal) = if a = b then 1 else 0 := by
  by_cases h : a = b
  · subst h; simp [IntOp.cmpi]
  · have : (a == b) = false := by simpa using h
    simp [IntOp.cmpi, this, h]

/-- The one-hot row for the chunk that starts at `base`: entry (p, k) is 1 exactly when row p's id is base + k. -/
theorem hot_apply (v1 : IVec S4096x1 32) (b : BitVec 32) (base : ℕ) (hb : b = BitVec.ofNat 32 base)
    (p : Fin 4096) (k : Fin 256) :
    (truncf .bf16 (sitofp .f32 (extui 32 (cmpi .eq (broadcastTo S4096x256 v1 broadcasts_S4096x1_S4096x256)
        (addi (iota .tc S4096x256 32 [1] iota_S4096x256_d1_w32) (broadcast S4096x256 b))) natLt_1_32)
        : FVec Ideal S4096x256 .f32) bitsLt_bf16_f32 : FVec Ideal S4096x256 .bf16) (ix2 p k)
      = Cert.Spec.hot (v1 (ix2 p 0)) base k := by
  rw [truncf_apply, sitofp_apply, extui_apply]
  show FloatOps.sitofp (F := Ideal) .f32 ((IntOp.cmpi .eq (broadcastTo S4096x256 v1 broadcasts_S4096x1_S4096x256 (ix2 p k))
      (IntOp.addi (iota .tc S4096x256 32 [1] iota_S4096x256_d1_w32 (ix2 p k)) b)).setWidth 32) = _
  rw [broadcastTo_apply v1 broadcasts_S4096x1_S4096x256 (ix2 p k) (ix2 p 0) (by
      intro a; match a with
      | ⟨0, _⟩ => rfl
      | ⟨1, _⟩ => rfl),
    iota_single_apply]
  show ((((IntOp.cmpi .eq (v1 (ix2 p 0)) (BitVec.ofNat 32 k.val + b)).setWidth 32).toInt : ℝ) : EReal) = _
  rw [bit_real, hb]
  unfold Cert.Spec.hot
  have e : BitVec.ofNat 32 k.val + BitVec.ofNat 32 base = BitVec.ofNat 32 (base + k.val) := by
    rw [← BitVec.ofNat_add, Nat.add_comm]
  rw [e]

/-! ### The four one-hot rows -/

theorem oh7 (v0 : Vec Ideal S4096x1 .i32) (p : Fin 4096) (k : Fin 256) :
    k0_pay7 (F := Ideal) v0 (ix2 p k) = Cert.Spec.hot (v0 (ix2 p 0)) 0 k :=
  (hot_apply (shapeCast S4096x1 v0 shapeCasts_S4096x1_S4096x1) 0#32 0 rfl p k).trans (by rw [shapeCast_self])

theorem oh10 (v0 : Vec Ideal S4096x1 .i32) (p : Fin 4096) (k : Fin 256) :
    k0_pay10 (F := Ideal) v0 (ix2 p k) = Cert.Spec.hot (v0 (ix2 p 0)) 256 k :=
  (hot_apply (shapeCast S4096x1 v0 shapeCasts_S4096x1_S4096x1) 256#32 256 rfl p k).trans (by rw [shapeCast_self])

theorem oh13 (v1 : IVec S4096x1 32) (p : Fin 4096) (k : Fin 256) :
    k0_pay13 (F := Ideal) v1 (ix2 p k) = Cert.Spec.hot (v1 (ix2 p 0)) 512 k :=
  hot_apply v1 512#32 512 rfl p k

theorem oh2 (v1 : IVec S4096x1 32) (p : Fin 4096) (k : Fin 256) :
    k0_pay2 (F := Ideal) v1 (ix2 p k) = Cert.Spec.hot (v1 (ix2 p 0)) 768 k :=
  hot_apply v1 768#32 768 rfl p k

theorem pay5_eq (v0 : Vec Ideal S4096x1 .i32) : k0_pay5 (F := Ideal) v0 = v0 := shapeCast_self _ _

/-! ### The eight accumulating payloads at an entry -/

theorem pay8_apply (v0 : Vec Ideal S4096x1 .i32) (blk : Vec Ideal S256x512 .bf16) (acc : Vec Ideal S4096x512 .f32)
    (p : Fin 4096) (f : Fin 512) :
    k0_pay8 (F := Ideal) v0 blk acc (ix2 p f) = acc (ix2 p f) + ∑ k : Fin 256, Cert.Spec.hot (v0 (ix2 p 0)) 0 k * blk (ix2 k f) :=
  (step_apply (k0_pay7 v0) blk acc p f).trans (by simp only [oh7])

theorem pay9_apply (v0 : Vec Ideal S4096x1 .i32) (blk : Vec Ideal S256x512 .bf16) (acc : Vec Ideal S4096x512 .f32)
    (p : Fin 4096) (f : Fin 512) :
    k0_pay9 (F := Ideal) v0 blk acc (ix2 p f) = acc (ix2 p f) + ∑ k : Fin 256, Cert.Spec.hot (v0 (ix2 p 0)) 0 k * blk (ix2 k f) :=
  (step_apply (k0_pay7 v0) blk acc p f).trans (by simp only [oh7])

theorem pay11_apply (oh : FVec Ideal S4096x256 .bf16) (blk : Vec Ideal S256x512 .bf16) (acc : Vec Ideal S4096x512 .f32)
    (p : Fin 4096) (f : Fin 512) :
    k0_pay11 (F := Ideal) oh blk acc (ix2 p f) = acc (ix2 p f) + ∑ k : Fin 256, oh (ix2 p k) * blk (ix2 k f) :=
  step_apply oh blk acc p f

theorem pay12_apply (oh : FVec Ideal S4096x256 .bf16) (blk : Vec Ideal S256x512 .bf16) (acc : Vec Ideal S4096x512 .f32)
    (p : Fin 4096) (f : Fin 512) :
    k0_pay12 (F := Ideal) oh blk acc (ix2 p f) = acc (ix2 p f) + ∑ k : Fin 256, oh (ix2 p k) * blk (ix2 k f) :=
  step_apply oh blk acc p f

theorem pay15_apply (v1 : IVec S4096x1 32) (blk : Vec Ideal S256x512 .bf16) (acc : Vec Ideal S4096x512 .f32)
    (p : Fin 4096) (f : Fin 512) :
    k0_pay15 (F := Ideal) v1 blk acc (ix2 p f) = acc (ix2 p f) + ∑ k : Fin 256, Cert.Spec.hot (v1 (ix2 p 0)) 512 k * blk (ix2 k f) :=
  (step_apply (k0_pay13 v1) blk acc p f).trans (by simp only [oh13])

theorem pay1_apply (oh : FVec Ideal S4096x256 .bf16) (blk : Vec Ideal S256x512 .bf16) (acc : Vec Ideal S4096x512 .f32)
    (p : Fin 4096) (f : Fin 512) :
    k0_pay1 (F := Ideal) oh (k0_pay14 blk) acc (ix2 p f) = acc (ix2 p f) + ∑ k : Fin 256, oh (ix2 p k) * blk (ix2 k f) :=
  step_apply oh blk acc p f

theorem pay3_apply (v1 : IVec S4096x1 32) (blk : Vec Ideal S256x512 .bf16) (acc : Vec Ideal S4096x512 .f32)
    (p : Fin 4096) (f : Fin 512) :
    k0_pay3 (F := Ideal) v1 blk acc (ix2 p f) = acc (ix2 p f) + ∑ k : Fin 256, Cert.Spec.hot (v1 (ix2 p 0)) 768 k * blk (ix2 k f) :=
  (step_apply (k0_pay2 v1) blk acc p f).trans (by simp only [oh2])

theorem pay4_apply (v1 : IVec S4096x1 32) (blk : Vec Ideal S256x512 .bf16) (acc : Vec Ideal S4096x512 .f32)
    (p : Fin 4096) (f : Fin 512) :
    k0_pay4 (F := Ideal) v1 blk acc (ix2 p f) = acc (ix2 p f) + ∑ k : Fin 256, Cert.Spec.hot (v1 (ix2 p 0)) 768 k * blk (ix2 k f) :=
  (step_apply (k0_pay2 v1) blk acc p f).trans (by simp only [oh2])

theorem pay6_apply (y : S4096x512.Idx) : k0_pay6 (F := Ideal) y = 0 := Ideal.ofBits_zero_f32

/-! ### Opening the run: each load of the output block reads the store before it -/

theorem hz : (![0, 0] : Fin 2 → ℕ) = fun _ => 0 := by funext a; fin_cases a <;> rfl

/-- A load of the whole block after a list of stores whose LAST store wrote the whole block reads that store's payload. -/
theorem readCov_cons_whole {sg : RefSig} {κ : Kind} {sp : Space} {S : Shape} {e : EltTy} (v : View sg κ sp S e)
    {off : Fin S.rank → ℕ} (h : off = fun _ => 0) (inb : ∀ a, off a + S.size a ≤ S.size a)
    (w : S.Idx → Elt Ideal e) (L : List (View.Piece (Elt Ideal) S e)) :
    v.readCov ((⟨Rect.unit off S.size inb, w⟩ : View.Piece (Elt Ideal) S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The term one product adds at column f for a row whose id is `w`: the one-hot row for the chunk at `base` against the chunk's column. -/
def term (w : BitVec 32) (base : ℕ) (hb : base + 256 ≤ 1024) (x : Vec Ideal S1024x512 .bf16) (f : Fin 512) : EReal :=
  ∑ k : Fin 256, Cert.Spec.hot w base k * x (ix2 (⟨base + k.val, by omega⟩ : Fin 1024) f)

section Chain

variable (c : Dev nD) (arg1 : Memref sig .tc .vmem S4096x1 .i32) (harg1 : arg1.IsWhole)
  (arg2 : Memref sig .tc .vmem S1024x512 .bf16) (harg2 : arg2.IsWhole)
  (arg3 : Memref sig .tc .vmem S1024x512 .bf16) (harg3 : arg3.IsWhole)
  (arg4 : Memref sig .tc .vmem S4096x512 .f32)
  (x0 : Vec Ideal S4096x1 .i32) (x1 x2 : Vec Ideal S1024x512 .bf16)

/-- The ids' staging buffer read whole. -/
theorem rd_ids :
    View.readAt (Elt Ideal) arg1.view (Rect.unit (s := S4096x1) ![0, 0] S4096x1.size inb_S4096x1_S4096x1_0_0).toLoadRect
      (harg1.unread x0) = x0 := by
  rw [View.readAt_eq_ld, harg1.read_unread, View.ld_unit_zero hz]

/-- 256 rows of a table's staging buffer from row `base`, at an entry. -/
theorem rd_rows (arg : Memref sig .tc .vmem S1024x512 .bf16) (harg : arg.IsWhole) (x : Vec Ideal S1024x512 .bf16)
    (base : ℕ) (hb : base + 256 ≤ 1024) (inb : ∀ a, (![base, 0] : Fin 2 → ℕ) a + S256x512.size a ≤ S1024x512.size a)
    (k : Fin 256) (f : Fin 512) :
    View.readAt (Elt Ideal) arg.view (Rect.unit (s := S1024x512) ![base, 0] S256x512.size inb).toLoadRect (harg.unread x) (ix2 k f)
      = x (ix2 (⟨base + k.val, by omega⟩ : Fin 1024) f) := by
  rw [View.readAt_eq_ld, harg.read_unread]
  show x ((Rect.unit (s := S1024x512) ![base, 0] S256x512.size inb).emb (ix2 k f)) = _
  refine congrArg x (Shape.idx_ext₂ ?_ ?_)
  · rw [Rect.emb_apply]; show base + 1 * k.val = base + k.val; omega
  · rw [Rect.emb_apply]; show 0 + 1 * f.val = f.val; omega

theorem r_eq : kernelRun0_A.sl.r (F := Ideal) c arg1 harg1 x0 = x0 := by
  unfold kernelRun0_A.sl.r; rw [rd_ids, pay5_eq]

theorem r1_apply (p : Fin 4096) (k : Fin 256) :
    kernelRun0_A.sl.r_1 (F := Ideal) c arg1 harg1 x0 (ix2 p k) = Cert.Spec.hot (x0 (ix2 p 0)) 256 k := by
  unfold kernelRun0_A.sl.r_1; rw [rd_ids, oh10]

theorem r2_apply (p : Fin 4096) (k : Fin 256) :
    kernelRun0_A.sl.r_2 (F := Ideal) c arg1 harg1 x0 (ix2 p k) = Cert.Spec.hot (x0 (ix2 p 0)) 512 k := by
  unfold kernelRun0_A.sl.r_2; rw [r_eq, oh13]

theorem v16_eq : @Eq (Vec Ideal S4096x512 .f32) (kernelRun0_A.sl.v16 (F := Ideal) c arg4) (k0_pay6 (F := Ideal)) := by
  unfold kernelRun0_A.sl.v16 kernelRun0_A.sl.H3_1
  exact readCov_cons_whole (S := S4096x512) _ hz _ _ _

theorem v16_apply (y : S4096x512.Idx) : (kernelRun0_A.sl.v16 (F := Ideal) c arg4 : Vec Ideal S4096x512 .f32) y = 0 :=
  (congrFun (v16_eq c arg4) y).trans (pay6_apply y)

theorem v21_eq : @Eq (Vec Ideal S4096x512 .f32) (kernelRun0_A.sl.v21 (F := Ideal) c arg1 harg1 arg2 harg2 arg4 x0 x1)
    (k0_pay8 (F := Ideal) x0 (View.readAt (Elt Ideal) arg2.view (Rect.unit (s := S1024x512) ![0, 0] S256x512.size inb_S1024x512_S256x512_0_0).toLoadRect (harg2.unread x1))
        (kernelRun0_A.sl.v16 (F := Ideal) c arg4)) := by
  unfold kernelRun0_A.sl.v21 kernelRun0_A.sl.H3_2
  rw [rd_ids]
  exact readCov_cons_whole (S := S4096x512) _ hz _ _ _

theorem v21_apply (p : Fin 4096) (f : Fin 512) :
    (kernelRun0_A.sl.v21 (F := Ideal) c arg1 harg1 arg2 harg2 arg4 x0 x1 : Vec Ideal S4096x512 .f32) (ix2 p f)
      = 0 + term (x0 (ix2 p 0)) 0 (by omega) x1 f := by
  refine (congrFun (v21_eq c arg1 harg1 arg2 harg2 arg4 x0 x1) (ix2 p f)).trans ?_
  rw [pay8_apply, v16_apply]
  unfold term
  simp only [rd_rows _ _ _ 0 (by omega)]

theorem v38_eq : @Eq (Vec Ideal S4096x512 .f32) (kernelRun0_A.sl.v38 (F := Ideal) c arg1 harg1 arg2 harg2 arg3 harg3 arg4 x0 x1 x2)
    (k0_pay9 (F := Ideal) x0 (View.readAt (Elt Ideal) arg3.view (Rect.unit (s := S1024x512) ![0, 0] S256x512.size inb_S1024x512_S256x512_0_0).toLoadRect (harg3.unread x2))
      (kernelRun0_A.sl.v21 (F := Ideal) c arg1 harg1 arg2 harg2 arg4 x0 x1)) := by
  unfold kernelRun0_A.sl.v38 kernelRun0_A.sl.H3_3
  rw [rd_ids]
  exact readCov_cons_whole (S := S4096x512) _ hz _ _ _

theorem v38_apply (p : Fin 4096) (f : Fin 512) :
    ((kernelRun0_A.sl.v38 (F := Ideal) c arg1 harg1 arg2 harg2 arg3 harg3 arg4 x0 x1 x2) : Vec Ideal S4096x512 .f32) (ix2 p f)
      = 0 + term (x0 (ix2 p 0)) 0 (by omega) x1 f + term (x0 (ix2 p 0)) 0 (by omega) x2 f := by
  refine (congrFun (v38_eq c arg1 harg1 arg2 harg2 arg3 harg3 arg4 x0 x1 x2) (ix2 p f)).trans ?_
  rw [pay9_apply, v21_apply]
  unfold term
  simp only [rd_rows _ _ _ 0 (by omega)]

theorem v43_eq : @Eq (Vec Ideal S4096x512 .f32) (kernelRun0_A.sl.v43 (F := Ideal) c arg1 harg1 arg2 harg2 arg3 harg3 arg4 x0 x1 x2)
    (k0_pay11 (F := Ideal) (kernelRun0_A.sl.r_1 (F := Ideal) c arg1 harg1 x0) (View.readAt (Elt Ideal) arg2.view (Rect.unit (s := S1024x512) ![256, 0] S256x512.size inb_S1024x512_S256x512_256_0).toLoadRect (harg2.unread x1)) (kernelRun0_A.sl.v38 (F := Ideal) c arg1 harg1 arg2 harg2 arg3 harg3 arg4 x0 x1 x2)) := by
  unfold kernelRun0_A.sl.v43 kernelRun0_A.sl.H3_4
  exact readCov_cons_whole (S := S4096x512) _ hz _ _ _

theorem v43_apply (p : Fin 4096) (f : Fin 512) :
    ((kernelRun0_A.sl.v43 (F := Ideal) c arg1 harg1 arg2 harg2 arg3 harg3 arg4 x0 x1 x2) : Vec Ideal S4096x512 .f32) (ix2 p f)
      = 0 + term (x0 (ix2 p 0)) 0 (by omega) x1 f + term (x0 (ix2 p 0)) 0 (by omega) x2 f
          + term (x0 (ix2 p 0)) 256 (by omega) x1 f := by
  refine (congrFun (v43_eq c arg1 harg1 arg2 harg2 arg3 harg3 arg4 x0 x1 x2) (ix2 p f)).trans ?_
  rw [pay11_apply, v38_apply]
  unfold term
  simp only [rd_rows _ _ _ 256 (by omega), r1_apply]

theorem v60_eq : @Eq (Vec Ideal S4096x512 .f32) (kernelRun0_A.sl.v60 (F := Ideal) c arg1 harg1 arg2 harg2 arg3 harg3 arg4 x0 x1 x2)
    (k0_pay12 (F := Ideal) (kernelRun0_A.sl.r_1 (F := Ideal) c arg1 harg1 x0) (View.readAt (Elt Ideal) arg3.view (Rect.unit (s := S1024x512) ![256, 0] S256x512.size inb_S1024x512_S256x512_256_0).toLoadRect (harg3.unread x2)) (kernelRun0_A.sl.v43 (F := Ideal) c arg1 harg1 arg2 harg2 arg3 harg3 arg4 x0 x1 x2)) := by
  unfold kernelRun0_A.sl.v60 kernelRun0_A.sl.H3_5
  exact readCov_cons_whole (S := S4096x512) _ hz _ _ _

theorem v60_apply (p : Fin 4096) (f : Fin 512) :
    ((kernelRun0_A.sl.v60 (F := Ideal) c arg1 harg1 arg2 harg2 arg3 harg3 arg4 x0 x1 x2) : Vec Ideal S4096x512 .f32) (ix2 p f)
      = 0 + term (x0 (ix2 p 0)) 0 (by omega) x1 f + term (x0 (ix2 p 0)) 0 (by omega) x2 f
          + term (x0 (ix2 p 0)) 256 (by omega) x1 f + term (x0 (ix2 p 0)) 256 (by omega) x2 f := by
  refine (congrFun (v60_eq c arg1 harg1 arg2 harg2 arg3 harg3 arg4 x0 x1 x2) (ix2 p f)).trans ?_
  rw [pay12_apply, v43_apply]
  unfold term
  simp only [rd_rows _ _ _ 256 (by omega), r1_apply]

theorem v65_eq : @Eq (Vec Ideal S4096x512 .f32) (kernelRun0_A.sl.v65 (F := Ideal) c arg1 harg1 arg2 harg2 arg3 harg3 arg4 x0 x1 x2)
    (k0_pay15 (F := Ideal) (kernelRun0_A.sl.r (F := Ideal) c arg1 harg1 x0) (View.readAt (Elt Ideal) arg2.view (Rect.unit (s := S1024x512) ![512, 0] S256x512.size inb_S1024x512_S256x512_512_0).toLoadRect (harg2.unread x1)) (kernelRun0_A.sl.v60 (F := Ideal) c arg1 harg1 arg2 harg2 arg3 harg3 arg4 x0 x1 x2)) := by
  unfold kernelRun0_A.sl.v65 kernelRun0_A.sl.H3_6
  exact readCov_cons_whole (S := S4096x512) _ hz _ _ _

theorem v65_apply (p : Fin 4096) (f : Fin 512) :
    ((kernelRun0_A.sl.v65 (F := Ideal) c arg1 harg1 arg2 harg2 arg3 harg3 arg4 x0 x1 x2) : Vec Ideal S4096x512 .f32) (ix2 p f)
      = 0 + term (x0 (ix2 p 0)) 0 (by omega) x1 f + term (x0 (ix2 p 0)) 0 (by omega) x2 f
          + term (x0 (ix2 p 0)) 256 (by omega) x1 f + term (x0 (ix2 p 0)) 256 (by omega) x2 f
          + term (x0 (ix2 p 0)) 512 (by omega) x1 f := by
  refine (congrFun (v65_eq c arg1 harg1 arg2 harg2 arg3 harg3 arg4 x0 x1 x2) (ix2 p f)).trans ?_
  rw [pay15_apply, v60_apply, r_eq]
  unfold term
  simp only [rd_rows _ _ _ 512 (by omega)]

theorem v82_eq : @Eq (Vec Ideal S4096x512 .f32) (kernelRun0_A.sl.v82 (F := Ideal) c arg1 harg1 arg2 harg2 arg3 harg3 arg4 x0 x1 x2)
    (k0_pay1 (F := Ideal) (kernelRun0_A.sl.r_2 (F := Ideal) c arg1 harg1 x0)
      (k0_pay14 (F := Ideal) (View.readAt (Elt Ideal) arg3.view (Rect.unit (s := S1024x512) ![512, 0] S256x512.size inb_S1024x512_S256x512_512_0).toLoadRect (harg3.unread x2))) (kernelRun0_A.sl.v65 (F := Ideal) c arg1 harg1 arg2 harg2 arg3 harg3 arg4 x0 x1 x2)) := by
  unfold kernelRun0_A.sl.v82 kernelRun0_A.sl.H3_7 kernelRun0_A.sl.r_3
  exact readCov_cons_whole (S := S4096x512) _ hz _ _ _

theorem v82_apply (p : Fin 4096) (f : Fin 512) :
    ((kernelRun0_A.sl.v82 (F := Ideal) c arg1 harg1 arg2 harg2 arg3 harg3 arg4 x0 x1 x2) : Vec Ideal S4096x512 .f32) (ix2 p f)
      = 0 + term (x0 (ix2 p 0)) 0 (by omega) x1 f + term (x0 (ix2 p 0)) 0 (by omega) x2 f
          + term (x0 (ix2 p 0)) 256 (by omega) x1 f + term (x0 (ix2 p 0)) 256 (by omega) x2 f
          + term (x0 (ix2 p 0)) 512 (by omega) x1 f + term (x0 (ix2 p 0)) 512 (by omega) x2 f := by
  refine (congrFun (v82_eq c arg1 harg1 arg2 harg2 arg3 harg3 arg4 x0 x1 x2) (ix2 p f)).trans ?_
  rw [pay1_apply, v65_apply]
  unfold term
  simp only [rd_rows _ _ _ 512 (by omega), r2_apply]

theorem v87_eq : @Eq (Vec Ideal S4096x512 .f32) (kernelRun0_A.sl.v87 (F := Ideal) c arg1 harg1 arg2 harg2 arg3 harg3 arg4 x0 x1 x2)
    (k0_pay3 (F := Ideal) (kernelRun0_A.sl.r (F := Ideal) c arg1 harg1 x0) (View.readAt (Elt Ideal) arg2.view (Rect.unit (s := S1024x512) ![768, 0] S256x512.size inb_S1024x512_S256x512_768_0).toLoadRect (harg2.unread x1)) (kernelRun0_A.sl.v82 (F := Ideal) c arg1 harg1 arg2 harg2 arg3 harg3 arg4 x0 x1 x2)) := by
  unfold kernelRun0_A.sl.v87 kernelRun0_A.sl.H3_8
  exact readCov_cons_whole (S := S4096x512) _ hz _ _ _

theorem v87_apply (p : Fin 4096) (f : Fin 512) :
    ((kernelRun0_A.sl.v87 (F := Ideal) c arg1 harg1 arg2 harg2 arg3 harg3 arg4 x0 x1 x2) : Vec Ideal S4096x512 .f32) (ix2 p f)
      = 0 + term (x0 (ix2 p 0)) 0 (by omega) x1 f + term (x0 (ix2 p 0)) 0 (by omega) x2 f
          + term (x0 (ix2 p 0)) 256 (by omega) x1 f + term (x0 (ix2 p 0)) 256 (by omega) x2 f
          + term (x0 (ix2 p 0)) 512 (by omega) x1 f + term (x0 (ix2 p 0)) 512 (by omega) x2 f
          + term (x0 (ix2 p 0)) 768 (by omega) x1 f := by
  refine (congrFun (v87_eq c arg1 harg1 arg2 harg2 arg3 harg3 arg4 x0 x1 x2) (ix2 p f)).trans ?_
  rw [pay3_apply, v82_apply, r_eq]
  unfold term
  simp only [rd_rows _ _ _ 768 (by omega)]

/-- What the body leaves in the output block at entry (p, f): from zero, for each chunk in turn, the table's term then the
    residual table's term, for the id in row p. -/
theorem out0_apply (i : grid0.Coords) (harg4 : arg4.IsWhole) (p : Fin 4096) (f : Fin 512) :
    out0_A_3 (F := Ideal) c i arg1 harg1 arg2 harg2 arg3 harg3 arg4 harg4 x0 x1 x2 (ix2 p f)
      = 0 + term (x0 (ix2 p 0)) 0 (by omega) x1 f + term (x0 (ix2 p 0)) 0 (by omega) x2 f
          + term (x0 (ix2 p 0)) 256 (by omega) x1 f + term (x0 (ix2 p 0)) 256 (by omega) x2 f
          + term (x0 (ix2 p 0)) 512 (by omega) x1 f + term (x0 (ix2 p 0)) 512 (by omega) x2 f
          + term (x0 (ix2 p 0)) 768 (by omega) x1 f + term (x0 (ix2 p 0)) 768 (by omega) x2 f := by
  unfold out0_A_3
  rw [View.read_writes_eq_canon _ _ _ (cover0_A_3 c i arg1 harg1 arg2 harg2 arg3 harg3 arg4 harg4 x0 x1 x2)]
  unfold kernelRun0_A
  dsimp only
  refine (congrFun (View.canon_cons_unit_zero (S := S4096x512) hz _ _ _) (ix2 p f)).trans ?_
  rw [pay4_apply, v87_apply, r_eq]
  unfold term
  simp only [rd_rows _ _ _ 768 (by omega)]

end Chain

/-! ### The three input blocks at a grid point -/

section Blocks

variable (m : (ℓ : Loc nD τ sig) → Buf (Elt Ideal) ℓ)

/-- The ids' block, the table's block and the residual table's block at grid point t, at their literal types. -/
abbrev idsBlk (c : Dev nD) (t : Fin cfg0.N) : Vec Ideal S4096x1 .i32 := iblk m c 0 t
abbrev hiBlk (c : Dev nD) (t : Fin cfg0.N) : Vec Ideal S1024x512 .bf16 := iblk m c 1 t
abbrev loBlk (c : Dev nD) (t : Fin cfg0.N) : Vec Ideal S1024x512 .bf16 := iblk m c 2 t

/-- Point t takes block (t, 0) of the ids (rows 4096·t … 4096·t + 4095) and the one block (0, 0) of each table. -/
theorem ids_index : ∀ t : Fin cfg0.N, win0_0.index t (0 : Fin 2) = t.val ∧ win0_0.index t (1 : Fin 2) = 0 :=
  (by decide +kernel : ∀ t : Fin grid0.N, _)
theorem hi_index : ∀ t : Fin cfg0.N, win0_1.index t (0 : Fin 2) = 0 ∧ win0_1.index t (1 : Fin 2) = 0 :=
  (by decide +kernel : ∀ t : Fin grid0.N, _)
theorem lo_index : ∀ t : Fin cfg0.N, win0_2.index t (0 : Fin 2) = 0 ∧ win0_2.index t (1 : Fin 2) = 0 :=
  (by decide +kernel : ∀ t : Fin grid0.N, _)

/-- Row p of the ids' block at point t is token 4096·t + p's id, clamped. -/
theorem ids_read (c : Dev nD) (t : Fin cfg0.N) (p : Fin 4096) (h : 4096 * t.val + p.val < 131072) :
    idsBlk m c t (ix2 p 0) = Cert.Spec.roww (X m c (Cert.Spec.tok ⟨4096 * t.val + p.val, h⟩)) := by
  show V (F := Ideal) m c main_v1 (((cfg0.win 0).blk t).view.emb (ix2 p 0)) = _
  rw [idx_eq]
  obtain ⟨e0, e1⟩ := ids_index t
  refine congrArg (fun r => Cert.Spec.roww (X m c (Cert.Spec.tok r))) (Fin.ext ?_)
  show win0_0.index t (0 : Fin 2) * 4096 + 1 * p.val = 4096 * t.val + p.val
  omega

theorem hi_read (c : Dev nD) (t : Fin cfg0.N) (i : Fin 1024) (f : Fin 512) :
    hiBlk m c t (ix2 i f) = Cert.Spec.tbl (W1 m c) (B1 m c) (W2 m c) (B2 m c) i f := by
  show V (F := Ideal) m c main_v13 (((cfg0.win 1).blk t).view.emb (ix2 i f)) = _
  rw [thi_eq]
  obtain ⟨e0, e1⟩ := hi_index t
  congr 1 <;> apply Fin.ext
  · show win0_1.index t (0 : Fin 2) * 1024 + 1 * i.val = i.val
    omega
  · show win0_1.index t (1 : Fin 2) * 512 + 1 * f.val = f.val
    omega

theorem lo_read (c : Dev nD) (t : Fin cfg0.N) (i : Fin 1024) (f : Fin 512) :
    loBlk m c t (ix2 i f)
      = Cert.Spec.tbl (W1 m c) (B1 m c) (W2 m c) (B2 m c) i f - Cert.Spec.tbl (W1 m c) (B1 m c) (W2 m c) (B2 m c) i f := by
  show V (F := Ideal) m c main_v16 (((cfg0.win 2).blk t).view.emb (ix2 i f)) = _
  rw [tlo_eq]
  obtain ⟨e0, e1⟩ := lo_index t
  have a0 : (((cfg0.win 2).blk t).view.emb (ix2 i f)) 0 = i := by
    apply Fin.ext
    show win0_2.index t (0 : Fin 2) * 1024 + 1 * i.val = i.val
    omega
  have a1 : (((cfg0.win 2).blk t).view.emb (ix2 i f)) 1 = f := by
    apply Fin.ext
    show win0_2.index t (1 : Fin 2) * 512 + 1 * f.val = f.val
    omega
  rw [a0, a1]

/-- The body's result at grid point t: row p of the block is the table row token 4096·t + p selects. The eight terms
    collapse to the selected entry because that entry is a real number. -/
theorem outsAt_eq (c : Dev nD) (t : Fin cfg0.N)
    (hfin : Cert.Spec.IsReal (W1 m c) ∧ Cert.Spec.IsReal (B1 m c) ∧ Cert.Spec.IsReal (W2 m c) ∧ Cert.Spec.IsReal (B2 m c))
    (y : S4096x512.Idx) :
    outsAt0 (F := Ideal) m c t y
      = Cert.Spec.flat (X m c) (W1 m c) (B1 m c) (W2 m c) (B2 m c)
          (ix2 (⟨4096 * t.val + (y 0).val, by have ht : t.val < 32 := t.isLt; have hy : (y 0).val < 4096 := (y 0).isLt; omega⟩ : Fin 131072) (y 1)) := by
  obtain ⟨p, f, rfl⟩ : ∃ (p : Fin 4096) (f : Fin 512), y = ix2 p f := ⟨y 0, y 1, eq_ix2 y⟩
  have hp : 4096 * t.val + p.val < 131072 := by have ht : t.val < 32 := t.isLt; have := p.isLt; omega
  refine (out0_apply c (ms0_0 t) (hs0_0 t) (ms0_1 t) (hs0_1 t) (ms0_2 t) (hs0_2 t) (ms0_3 t)
    (idsBlk m c t) (hiBlk m c t) (loBlk m c t) (grid0.coords t) (hs0_3 t) p f).trans ?_
  rw [ids_read m c t p hp]
  unfold term
  simp only [hi_read, lo_read]
  refine (Cert.Spec.acc_eq (Cert.Spec.roww (X m c (Cert.Spec.tok ⟨4096 * t.val + p.val, hp⟩))) (Cert.Spec.row_val_lt _)
    (fun i => Cert.Spec.tbl (W1 m c) (B1 m c) (W2 m c) (B2 m c) i f)
    (Cert.Spec.tbl_real hfin.1 hfin.2.1 hfin.2.2.1 hfin.2.2.2 _ f)).trans ?_
  show Cert.Spec.tbl (W1 m c) (B1 m c) (W2 m c) (B2 m c) _ f = Cert.Spec.tbl (W1 m c) (B1 m c) (W2 m c) (B2 m c) _ f
  exact congrArg (fun i => Cert.Spec.tbl (W1 m c) (B1 m c) (W2 m c) (B2 m c) i f) (Fin.ext (Cert.Spec.roww_toNat _))

end Blocks

end Cert.KernelIdeal.KBody
end
-- ==== Proof.KernelValue.lean ====
/-
  From blocks to the whole array, and through the reshape after the kernel: the program's result is the specification.
-/
import proofs.«417835_j26869315403945_3_alg».proof.Proof.KernelBody

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.KHost

section Blocks

variable (m : (ℓ : Loc nD τ sig) → Buf (Elt Ideal) ℓ)

/-- The result over flat token numbers, at the argument arrays of core `c`: entry (r, f) is the table row that token r
    selects, read at column f. -/
abbrev flatOut (c : Dev nD) : Cert.Spec.SFlat.Idx → EReal :=
  Cert.Spec.flat (X m c) (W1 m c) (B1 m c) (W2 m c) (B2 m c)

/-- The output window's index map over the grid: point t takes block (t, 0), that is rows 4096·t … 4096·t + 4095 and
    all 512 columns. -/
theorem block_index : ∀ t : Fin cfg0.N, win0_3.index t (0 : Fin 2) = t.val ∧ win0_3.index t (1 : Fin 2) = 0 :=
  (by decide +kernel : ∀ t : Fin grid0.N, _)

/-- What point t writes back is block t of the flat result: entry (p, f) of the block sits at row 4096·t + p, column f
    of the array, and the body left there the table row of token 4096·t + p. -/
theorem written_eq (c : Dev nD) (t : Fin cfg0.N)
    (hfin : Cert.Spec.IsReal (W1 m c) ∧ Cert.Spec.IsReal (B1 m c) ∧ Cert.Spec.IsReal (W2 m c) ∧ Cert.Spec.IsReal (B2 m c)) :
    (dats m 0 c).flushed 3 t = ((cfg0.win 3).blk t).view.read (Elt Ideal) (flatOut m c) := by
  show (cfg0.win 3).cut (grid0.coords t) ((dats m 0 c).after 3 t) = _
  rw [after0_3]
  funext y
  show outsAt0 (F := Ideal) m c t y = flatOut m c (((cfg0.win 3).blk t).view.emb y)
  rw [KBody.outsAt_eq m c t hfin y]
  obtain ⟨e0, e1⟩ := block_index t
  show flatOut m c _ = flatOut m c _
  congr 1
  funext a
  apply Fin.ext
  match a with
  | ⟨0, _⟩ =>
    show 4096 * t.val + (y 0).val = win0_3.index t (0 : Fin 2) * 4096 + 1 * (y 0).val
    omega
  | ⟨1, _⟩ =>
    show (y 1).val = win0_3.index t (1 : Fin 2) * 512 + 1 * (y 1).val
    omega

/-- An index of the flat array lies in point t's block iff each coordinate lies in the block's range on its axis. -/
theorem mem_block (t : Fin cfg0.N) (i : Cert.Spec.SFlat.Idx) :
    i ∈ ((cfg0.win 3).blk t).view.set ↔ ∀ a : Fin 2, win0_3.index t a * S4096x512.size a ≤ (i a).val ∧ (i a).val < win0_3.index t a * S4096x512.size a + S4096x512.size a := by
  show i ∈ ((View.whole main_v17).slice (win0_3.rect t)).set ↔ _
  rw [View.set_slice_whole, Rect.mem_set_unit]
  exact Iff.rfl

/-- The 32 blocks of 4096 rows tile the 131072 rows: row r is in the block of point r / 4096, and every point writes
    its block back. -/
theorem blocks_cover (i : Cert.Spec.SFlat.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  have hN : cfg0.N = 32 := N_0
  let t : Fin cfg0.N := ⟨(i 0).val / 4096, by rw [hN]; omega⟩
  obtain ⟨e0, e1⟩ := block_index t
  have ht : t.val = (i 0).val / 4096 := rfl
  refine ⟨t, flush0_3 t, ?_⟩
  rw [mem_block]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 512 ≤ (i 1).val ∧ (i 1).val < win0_3.index t (1 : Fin 2) * 512 + 512
    omega

/-- So after the last point the kernel's output array holds the flat result. -/
theorem array_eq (c : Dev nD)
    (hfin : Cert.Spec.IsReal (W1 m c) ∧ Cert.Spec.IsReal (B1 m c) ∧ Cert.Spec.IsReal (W2 m c) ∧ Cert.Spec.IsReal (B2 m c)) :
    (dats m 0 c).arrAt 3 cfg0.N = flatOut m c :=
  (dats m 0 c).arrAt_eq_of_cover 3 (flatOut m c) (fun t _ => written_eq m c t hfin) blocks_cover

/-- Flat token number 2048·b + s is token (b, s): the quotient by 2048 is b and the remainder s, as s < 2048. -/
theorem tok_flat (b : Fin 64) (s : Fin 2048) (h : 2048 * b.val + s.val < 131072) :
    Cert.Spec.tok ⟨2048 * b.val + s.val, h⟩ = ix2 b s := by
  have hb : (2048 * b.val + s.val) / 2048 = b.val := by have := s.isLt; omega
  have hs : (2048 * b.val + s.val) % 2048 = s.val := by have := s.isLt; omega
  unfold Cert.Spec.tok
  congr 1 <;> exact Fin.ext (by assumption)

/-- The reshape of a [131072, 512] array to [64, 2048, 512] reads entry (b, s, f) at (2048·b + s, f): both have
    row-major position (2048·b + s)·512 + f. -/
theorem reshape_flat (g : Cert.Spec.SFlat.Idx → EReal) (b : Fin 64) (s : Fin 2048) (f : Fin 512) :
    shapeCast S64x2048x512 g shapeCasts_S131072x512_S64x2048x512 (ix3 b s f)
      = g (ix2 (⟨2048 * b.val + s.val, by have := b.isLt; have := s.isLt; omega⟩ : Fin 131072) f) := by
  refine shapeCast_apply g _ (ix3 b s f) _ ?_
  rw [Shape.rowMajor_val_two, Shape.rowMajor_val_three]
  show (2048 * b.val + s.val) * 512 + f.val = (b.val * 2048 + s.val) * 512 + f.val
  omega

/-- The flat result at (2048·b + s, f) is the result at (b, s, f): the same token selects the same table row. -/
theorem flat_out (x : Cert.Spec.SX.Idx → BitVec 32) (W1 : Cert.Spec.SW1.Idx → EReal) (b1 : Cert.Spec.SB.Idx → EReal)
    (W2 : Cert.Spec.SW2.Idx → EReal) (b2 : Cert.Spec.SB.Idx → EReal) (b : Fin 64) (s : Fin 2048) (f : Fin 512)
    (h : 2048 * b.val + s.val < 131072) :
    Cert.Spec.flat x W1 b1 W2 b2 (ix2 (⟨2048 * b.val + s.val, h⟩ : Fin 131072) f) = Cert.Spec.out x W1 b1 W2 b2 (ix3 b s f) := by
  show Cert.Spec.tbl W1 b1 W2 b2 (Cert.Spec.row (x (Cert.Spec.tok ⟨2048 * b.val + s.val, h⟩))) f
    = Cert.Spec.tbl W1 b1 W2 b2 (Cert.Spec.row (x (ix2 b s))) f
  rw [tok_flat]

/-- The program's result: the one host line after the kernel reshapes its output array, which holds the flat result,
    to [64, 2048, 512]; entry by entry that is the specification. -/
theorem result_eq (c : Dev nD)
    (hfin : Cert.Spec.IsReal (W1 m c) ∧ Cert.Spec.IsReal (B1 m c) ∧ Cert.Spec.IsReal (W2 m c) ∧ Cert.Spec.IsReal (B2 m c)) :
    Pipeline.afterTail₀ cfgs (dats m) 0 (V0 m) [hostOps1] c main_v18
      = Cert.Spec.out (X m c) (W1 m c) (B1 m c) (W2 m c) (B2 m c) := by
  unfold Pipeline.afterTail₀
  show StableHlo.after hostOps1 _ (Proc.devRef .tc main_v18) = _
  after_results
  have hA : Pipeline.withArrays spec0 c (V0 m c) (fun w => (dats m 0 c).arrAt w cfg0.N) (Proc.devRef .tc main_v17) = flatOut m c :=
    (Pipeline.withArrays_arr spec0 launch0.win.arr_inj c _ _ 3).trans (array_eq m c hfin)
  funext j
  obtain ⟨b, s, f, rfl⟩ : ∃ b s f, j = ix3 b s f := ⟨j 0, j 1, j 2, eq_ix3 j⟩
  show shapeCast S64x2048x512 (Pipeline.withArrays spec0 c (V0 m c) (fun w => (dats m 0 c).arrAt w cfg0.N) (Proc.devRef .tc main_v17))
    shapeCasts_S131072x512_S64x2048x512 (ix3 b s f) = _
  rw [hA, reshape_flat]
  exact flat_out _ _ _ _ _ b s f _

end Blocks

/-- The run: the result array is neither an array of the kernel's windows nor written before the reshape, so it ends at
    what the reshape makes of the kernel's output array; the five arguments are written by no line and end as launched. -/
theorem run (m : (ℓ : Loc nD τ sig) → Buf (Elt Ideal) ℓ) (ρ : Dev nD → PrngReg)
    (hfin : ∀ c : Dev nD, Cert.Spec.IsReal (W1 m c) ∧ Cert.Spec.IsReal (B1 m c) ∧ Cert.Spec.IsReal (W2 m c) ∧ Cert.Spec.IsReal (B2 m c)) :
    θ_run (defs (F := Ideal)) (onTc (τ := τ) (main (F := Ideal))) ⟨m, fun _ => 0, ρ⟩ (fun r => ∀ c : Dev nD,
      r.2.mem ((c.tc : Thread nD τ).loc main_v18) = Cert.Spec.out (X m c) (W1 m c) (B1 m c) (W2 m c) (B2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v18 (Pipeline.mem_restRefs_of main_v18 (by decide) (by decide))).trans (result_eq m c (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefRun.lean ====
/-
  The reference program as one straight line of host operations, and its run.
-/
import proofs.«417835_j26869315403945_3_alg».proof.ReferenceIdeal
import proofs.«417835_j26869315403945_3_alg».proof.Proof.Gen.ReferenceIdeal
import proofs.«417835_j26869315403945_3_alg».proof.Proof.Spec
import Idealize.ShloMosaic.Lib.StableHlo.Run
import Idealize.ShloMosaic.Lib.ValueIdx
import Idealize.ShloMosaic.PureOps.Ideal.Laws

noncomputable section

namespace Cert.ReferenceIdeal.RefRun

open Idealize.ShloMosaic Idealize.ShloMosaic.TcCoe Idealize.SL.Sem Idealize.ShloMosaic.ValueIdx
open Cert.ReferenceIdeal

variable (m : (ℓ : Loc nD τ sig) → Buf (Elt Ideal) ℓ)

/-- The five argument arrays as launched, on core `c`. -/
abbrev X (c : Dev nD) : Cert.Spec.SX.Idx → BitVec 32 := m ((c.tc : Thread nD τ).loc main_arg0)
abbrev W1 (c : Dev nD) : Cert.Spec.SW1.Idx → EReal := m ((c.tc : Thread nD τ).loc main_arg1)
abbrev B1 (c : Dev nD) : Cert.Spec.SB.Idx → EReal := m ((c.tc : Thread nD τ).loc main_arg2)
abbrev W2 (c : Dev nD) : Cert.Spec.SW2.Idx → EReal := m ((c.tc : Thread nD τ).loc main_arg3)
abbrev B2 (c : Dev nD) : Cert.Spec.SB.Idx → EReal := m ((c.tc : Thread nD τ).loc main_arg4)

open Cert.ReferenceIdeal.Facts₀ in
/-- The reference's result as one pure function of its arguments: the ids clamped below at 0; the weight matrix
    transposed; the take (a negative id wrapped by 1024, the in-range mask 0 ≤ i ≤ 1023, the gather of the row, the
    fill where the mask is off); the bias, the rectifier, the second layer's product and its bias. -/
def refOut (x : IVec S64x2048 32) (w1 : FVec Ideal S512x1024 .f32) (b1 : FVec Ideal S512 .f32)
    (w2 : FVec Ideal S512x512 .f32) (b2 : FVec Ideal S512 .f32) : FVec Ideal S64x2048x512 .f32 :=
  let i0 : IVec S64x2048 32 := maxsi (broadcastInDim S64x2048 ![] bcast_S_S64x2048 (id (constantI S_ 32 0#32))) x
  let w1t : FVec Ideal S1024x512 .f32 := transpose S1024x512 [1, 0] w1 transposes_S512x1024_S1024x512_1_0
  let neg : IVec S64x2048 1 := cmpi .slt i0 (broadcastInDim S64x2048 ![] bcast_S_S64x2048 (constantI S_ 32 0#32))
  let i1 : IVec S64x2048 32 :=
    select neg (addi i0 (broadcastInDim S64x2048 ![] bcast_S_S64x2048 (constantI S_ 32 1024#32))) i0
  let i2 : IVec S64x2048x1 32 := broadcastInDim S64x2048x1 ![0, 1] bcast_S64x2048_S64x2048x1_0_1 i1
  let ok : IVec S64x2048x1 1 :=
    andi (cmpi .sge i2 (broadcastInDim S64x2048x1 ![] bcast_S_S64x2048x1 (constantI S_ 32 0#32)))
      (cmpi .sle i2 (broadcastInDim S64x2048x1 ![0, 1, 2] bcast_S1x1x1_S64x2048x1_0_1_2
        (broadcastInDim S1x1x1 ![2] bcast_S1_S1x1x1_2 (constantI S1 32 1023#32))))
  let okr : IVec S64x2048 1 := Host.reduce IntOp.andi ok (constantI S_ 1 1#1) reducesTo_S64x2048x1_S64x2048_d2 h_S_
  let g : FVec Ideal S64x2048x512 .f32 := Host.gather gather_S1024x512_S64x2048x1_S64x2048x512_2_0_n_n_0_2_1512 w1t i2
  let h0 : FVec Ideal S64x2048x512 .f32 :=
    select (broadcastInDim S64x2048x512 ![0, 1] bcast_S64x2048_S64x2048x512_0_1 okr) g
      (broadcastInDim S64x2048x512 ![] bcast_S_S64x2048x512 (constant (F := Ideal) S_ .f32 0x7FC00000#32))
  let h1 : FVec Ideal S64x2048x512 .f32 :=
    addf h0 (broadcastInDim S64x2048x512 ![0, 1, 2] bcast_S1x1x512_S64x2048x512_0_1_2 (broadcastInDim S1x1x512 ![2] bcast_S512_S1x1x512_2 b1))
  let h2 : FVec Ideal S64x2048x512 .f32 :=
    maximumf h1 (broadcastInDim S64x2048x512 ![] bcast_S_S64x2048x512 (constant (F := Ideal) S_ .f32 0x00000000#32))
  let d : FVec Ideal S64x2048x512 .f32 := Host.dotGeneral dot_S64x2048x512_S512x512_S64x2048x512_2_1_01_0_n_n none h2 w2
  addf d (broadcastInDim S64x2048x512 ![0, 1, 2] bcast_S1x1x512_S64x2048x512_0_1_2 (broadcastInDim S1x1x512 ![2] bcast_S512_S1x1x512_2 b2))

section Run

open Idealize.ShloMosaic.StableHlo Cert.ReferenceIdeal.Facts₀

/-- The reference's operations in order, each call written out at its call site over that call's buffers: the zero and
    the clamp's three (the bound's conversion, its broadcast, the maximum); the transposition; the take's twenty-three
    (the sign test against a zero, the wrapped index id + 1024 and the choice between them; the index column; the
    range mask from a second zero and from 1023, reduced over the unit axis; the gather; the fill and the selection);
    the first bias; the rectifier's three; the product with the second weight matrix; the second bias. -/
abbrev ops : List (HloOp τ sig (Elt Ideal)) :=
  [ nullary main_c (constantI S_ 32 0#32),
    TRef.unary (.of main_c) main_call0.v0 id,
    TRef.unary main_call0.v0 main_call0.v1 (broadcastInDim S64x2048 ![] bcast_S_S64x2048),
    TRef.binary main_call0.v1 (.of main_arg0) main_call0.v2 maxsi,
    unary main_arg1 main_v1 ((transpose S1024x512 [1, 0] · transposes_S512x1024_S1024x512_1_0) : (⟨S512x1024, .f32⟩ : BufTy).Contents (Elt Ideal) → (⟨S1024x512, .f32⟩ : BufTy).Contents (Elt Ideal)),
    TRef.nullary main_call1.c (constantI S_ 32 0#32),
    TRef.unary main_call1.c main_call1.v0 (broadcastInDim S64x2048 ![] bcast_S_S64x2048),
    TRef.binary (.of main_v0) main_call1.v0 main_call1.v1 (cmpi .slt),
    TRef.nullary main_call1.c_0 (constantI S_ 32 1024#32),
    TRef.unary main_call1.c_0 main_call1.v2 (broadcastInDim S64x2048 ![] bcast_S_S64x2048),
    TRef.binary (.of main_v0) main_call1.v2 main_call1.v3 addi,
    TRef.ternary main_call1.v1 main_call1.v3 (.of main_v0) main_call1.call0.v0 select,
    TRef.unary main_call1.call0.v0 main_call1.v5 (broadcastInDim S64x2048x1 ![0, 1] bcast_S64x2048_S64x2048x1_0_1),
    TRef.nullary main_call1.c_1 (constantI S1 32 1023#32),
    TRef.nullary main_call1.c_2 (constantI S_ 32 0#32),
    TRef.unary main_call1.c_2 main_call1.v6 (broadcastInDim S64x2048x1 ![] bcast_S_S64x2048x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S64x2048x1 ![0, 1, 2] bcast_S1x1x1_S64x2048x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S64x2048x1_S64x2048_d2 h_S_),
    TRef.binary (.of main_v1) main_call1.v5 main_call1.v13 (fun x i => Host.gather gather_S1024x512_S64x2048x1_S64x2048x512_2_0_n_n_0_2_1512 x i),
    TRef.unary main_call1.v12 main_call1.v14 (broadcastInDim S64x2048x512 ![0, 1] bcast_S64x2048_S64x2048x512_0_1),
    TRef.nullary main_call1.cst (constant (F := Ideal) S_ .f32 0x7FC00000#32),
    TRef.unary main_call1.cst main_call1.v15 (broadcastInDim S64x2048x512 ![] bcast_S_S64x2048x512),
    TRef.ternary main_call1.v14 main_call1.v13 main_call1.v15 main_call1.v16 select,
    unary main_arg2 main_v3 (broadcastInDim S1x1x512 ![2] bcast_S512_S1x1x512_2 : (⟨S512, .f32⟩ : BufTy).Contents (Elt Ideal) → (⟨S1x1x512, .f32⟩ : BufTy).Contents (Elt Ideal)),
    unary main_v3 main_v4 (broadcastInDim S64x2048x512 ![0, 1, 2] bcast_S1x1x512_S64x2048x512_0_1_2 : (⟨S1x1x512, .f32⟩ : BufTy).Contents (Elt Ideal) → (⟨S64x2048x512, .f32⟩ : BufTy).Contents (Elt Ideal)),
    binary main_v2 main_v4 main_v5 (addf (F := Ideal) (φ := .f32)),
    TRef.nullary main_call2.cst (constant (F := Ideal) S_ .f32 0x00000000#32),
    TRef.unary main_call2.cst main_call2.v0 (broadcastInDim S64x2048x512 ![] bcast_S_S64x2048x512),
    TRef.binary (.of main_v5) main_call2.v0 main_call2.v1 (maximumf (F := Ideal) (φ := .f32)),
    binary main_v6 main_arg3 main_v7 (fun l r => Host.dotGeneral (F := Ideal) (φ₁ := .f32) (φ₂ := .f32) dot_S64x2048x512_S512x512_S64x2048x512_2_1_01_0_n_n none l r),
    unary main_arg4 main_v8 (broadcastInDim S1x1x512 ![2] bcast_S512_S1x1x512_2 : (⟨S512, .f32⟩ : BufTy).Contents (Elt Ideal) → (⟨S1x1x512, .f32⟩ : BufTy).Contents (Elt Ideal)),
    unary main_v8 main_v9 (broadcastInDim S64x2048x512 ![0, 1, 2] bcast_S1x1x512_S64x2048x512_0_1_2 : (⟨S1x1x512, .f32⟩ : BufTy).Contents (Elt Ideal) → (⟨S64x2048x512, .f32⟩ : BufTy).Contents (Elt Ideal)),
    binary main_v7 main_v9 main_v10 (addf (F := Ideal) (φ := .f32)) ]

set_option maxRecDepth 1024 in
/-- The program is that straight line: the functions' bodies unfolded at their calls, and the sequencing
    reassociated, both sides are one chain of the same steps. -/
theorem main_eq (c : Dev nD) : main (F := Ideal) c = seq ops := by
  simp only [main, fn_clip.body, fn_take.body, fn_where.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt Ideal))).Forall fun op => op.bufs ⊆ tcRefs τ sig :=
  ⟨nullary_bufs_sub .., unary_bufs_sub .., unary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub .., unary_bufs_sub .., unary_bufs_sub ..,
    binary_bufs_sub .., nullary_bufs_sub .., unary_bufs_sub .., binary_bufs_sub .., binary_bufs_sub ..,
    unary_bufs_sub .., unary_bufs_sub .., binary_bufs_sub ..⟩

attribute [local irreducible] Host.reduce Host.gather addf maximumf select broadcastInDim transpose cmpi andi addi maxsi
  constantI constant FloatOps.dotGeneral in
set_option maxRecDepth 8192 in
set_option maxHeartbeats 400000 in
/-- The fold of the operations read at the result buffer is refOut of the arguments' contents: each operation
    rewrites exactly its own buffer, so the read descends through the line to the arguments, and the term met on the
    way is refOut's, operation for operation. Every array operation is kept closed meanwhile: the equation holds
    operation by operation and never looks inside one. -/
theorem out_eq (V : Valuation τ sig (Elt Ideal)) :
    after ops V (main_v10 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument. -/
theorem arg0_eq (V : Valuation τ sig (Elt Ideal)) :
    after ops V (main_arg0 : DevRef τ sig) = V (main_arg0 : DevRef τ sig) := by
  simp only [after_cons, after_nil]
  rfl

theorem arg1_eq (V : Valuation τ sig (Elt Ideal)) :
    after ops V (main_arg1 : DevRef τ sig) = V (main_arg1 : DevRef τ sig) := by
  simp only [after_cons, after_nil]
  rfl

theorem arg2_eq (V : Valuation τ sig (Elt Ideal)) :
    after ops V (main_arg2 : DevRef τ sig) = V (main_arg2 : DevRef τ sig) := by
  simp only [after_cons, after_nil]
  rfl

theorem arg3_eq (V : Valuation τ sig (Elt Ideal)) :
    after ops V (main_arg3 : DevRef τ sig) = V (main_arg3 : DevRef τ sig) := by
  simp only [after_cons, after_nil]
  rfl

theorem arg4_eq (V : Valuation τ sig (Elt Ideal)) :
    after ops V (main_arg4 : DevRef τ sig) = V (main_arg4 : DevRef τ sig) := by
  simp only [after_cons, after_nil]
  rfl

end Run

/-- The reference's run: every weakly fair execution terminates with the result buffer at `refOut` of the launched
    arguments, and the arguments as launched. -/
theorem run_term (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10) = refOut (X m c) (W1 m c) (B1 m c) (W2 m c) (B2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact (θ_run (defs (F := Ideal)) _ _).mono
    (fun _ h c => ⟨(h c main_v10).trans (out_eq _), (h c main_arg0).trans (arg0_eq _), (h c main_arg1).trans (arg1_eq _),
      (h c main_arg2).trans (arg2_eq _), (h c main_arg3).trans (arg3_eq _), (h c main_arg4).trans (arg4_eq _)⟩)
    (Idealize.ShloMosaic.StableHlo.run_seq scopedRefs_eq scopedSems_eq defs main (fun _ => ops) main_eq (fun _ => ops_sub) m ρ)

end Cert.ReferenceIdeal.RefRun

end
-- ==== Proof.RefValue.lean ====
/-
  The reference's result is the specification, for token ids that are at most 1023: with the id i = max(x, 0) in
  [0, 1023] the take's wrap is off and its mask is on, the gather reads row i of W1ᵀ, and the two layers at that row are
  the table's entry.

  The proof reads the reference's term at one index (b, s, f). Each operation that is not pointwise gets one small lemma
  saying which entry of its operand it reads there: the three broadcasts, the transpose, the gather of a table row, the
  `and` over the unit axis, and the second layer's product as a sum over the hidden coordinate. The integer part is the
  arithmetic of a signed word clamped below at zero: it is never negative, so the wrap by 1024 is off; for an id at most
  1023 it is at most 1023, so both range tests are on and the gather's own clamp to [0, 1023] changes nothing.
-/
import proofs.«417835_j26869315403945_3_alg».proof.Proof.RefRun
import Idealize.ShloMosaic.Lib.ValueLayout
import Idealize.ShloMosaic.Lib.Pipeline.Value

noncomputable section

namespace Cert.ReferenceIdeal.RefValue

open Idealize.ShloMosaic Idealize.ShloMosaic.TcCoe Idealize.SL.Sem Idealize.ShloMosaic.ValueIdx
open Cert.ReferenceIdeal Cert.ReferenceIdeal.RefRun

/-! ## The integer operations and constants at an index (definitional) -/

section Pointwise
variable {s t : Shape} {w : Nat}

theorem cmpi_apply (p : CmpIPredicate) (a b : IVec s w) (i : s.Idx) : cmpi p a b i = IntOp.cmpi p (a i) (b i) := rfl
theorem maxsi_apply (a b : IVec s w) (i : s.Idx) : maxsi a b i = IntOp.maxsi (a i) (b i) := rfl
theorem addi_apply (a b : IVec s w) (i : s.Idx) : addi a b i = IntOp.addi (a i) (b i) := rfl
theorem andi_apply (a b : IVec s w) (i : s.Idx) : andi a b i = IntOp.andi (a i) (b i) := rfl
/-- A broadcast integer constant reads the constant everywhere. -/
theorem bcast_constI_apply (dims : Fin s.rank → Fin t.rank) (h : s.BroadcastsInDim t dims) (c : BitVec w) (j : t.Idx) :
    broadcastInDim t dims h (constantI s w c) j = c := rfl
/-- A broadcast float constant reads the value of its word everywhere. -/
theorem bcast_const_apply (dims : Fin s.rank → Fin t.rank) (h : s.BroadcastsInDim t dims) (c : BitVec 32) (j : t.Idx) :
    broadcastInDim t dims h (constant (F := Ideal) s .f32 c) j = Ideal.ofBits .f32 c := rfl

end Pointwise

/-! ## The words of the take at an id clamped below at zero -/

section Words

theorem toInt_zero32 : (0#32 : BitVec 32).toInt = 0 := by decide
theorem toInt_1023 : (1023#32 : BitVec 32).toInt = 1023 := by decide

/-- The signed maximum with zero is the maximum of the signed values. -/
theorem toInt_clamp0 (v : BitVec 32) : (IntOp.maxsi 0#32 v).toInt = max v.toInt 0 := by
  unfold IntOp.maxsi
  by_cases h : v.slt 0#32 = true
  · rw [if_pos h]
    rw [BitVec.slt, decide_eq_true_eq, toInt_zero32] at h
    rw [toInt_zero32]; omega
  · rw [if_neg h]
    rw [BitVec.slt, decide_eq_true_eq, toInt_zero32] at h
    omega

/-- A non-negative word is not below zero: the take's wrap test is off. -/
theorem slt_zero_of_nonneg (c : BitVec 32) (h : 0 ≤ c.toInt) : IntOp.cmpi .slt c 0#32 = 0#1 := by
  have hb : c.slt 0#32 = false := by
    rw [BitVec.slt, decide_eq_false_iff_not, toInt_zero32]; omega
  show BitVec.ofBool (c.slt 0#32) = 0#1
  rw [hb]; rfl

/-- A non-negative word passes the lower range test. -/
theorem sge_zero_of_nonneg (c : BitVec 32) (h : 0 ≤ c.toInt) : IntOp.cmpi .sge c 0#32 = 1#1 := by
  have hb : (0#32 : BitVec 32).sle c = true := by
    rw [BitVec.sle, decide_eq_true_eq, toInt_zero32]; exact h
  show BitVec.ofBool ((0#32 : BitVec 32).sle c) = 1#1
  rw [hb]; rfl

/-- A word at most 1023 passes the upper range test. -/
theorem sle_1023_of_le (c : BitVec 32) (h : c.toInt ≤ 1023) : IntOp.cmpi .sle c 1023#32 = 1#1 := by
  have hb : c.sle 1023#32 = true := by
    rw [BitVec.sle, decide_eq_true_eq, toInt_1023]; exact h
  show BitVec.ofBool (c.sle 1023#32) = 1#1
  rw [hb]; rfl

/-- For an id at most 1023 the gather's clamped start index is the specification's row. -/
theorem start_eq_row (v : BitVec 32) (hv : v.toInt ≤ 1023) :
    (⟨min (IntOp.maxsi 0#32 v).toInt.toNat 1023, by omega⟩ : Fin 1024) = Cert.Spec.row v := by
  refine Fin.ext ?_
  show min (IntOp.maxsi 0#32 v).toInt.toNat 1023 = (min (max v.toInt 0) 1023).toNat
  rw [toInt_clamp0]; omega

end Words

/-! ## The layout operations read at an index -/

section Layout
variable {α : Type}

/-- A [64, 2048] array given a trailing unit axis reads, at (b, s, u), the array at (b, s). -/
theorem bcast_unit_apply (h : S64x2048.BroadcastsInDim S64x2048x1 (![0, 1] : Fin 2 → Fin S64x2048x1.rank))
    (v : S64x2048.Idx → α) (j : S64x2048x1.Idx) :
    broadcastInDim S64x2048x1 ![0, 1] h v j = v (ix2 (j 0) (j 1)) :=
  broadcastInDim_apply _ h v j _ fun a => match a with | ⟨0, _⟩ => rfl | ⟨1, _⟩ => rfl

/-- A [64, 2048] array copied along a third axis of 512 reads, at (b, s, e), the array at (b, s). -/
theorem bcast_rows_apply (h : S64x2048.BroadcastsInDim S64x2048x512 (![0, 1] : Fin 2 → Fin S64x2048x512.rank))
    (v : S64x2048.Idx → α) (b : Fin 64) (s : Fin 2048) (e : Fin 512) :
    broadcastInDim S64x2048x512 ![0, 1] h v (ix3 b s e) = v (ix2 b s) :=
  broadcastInDim_apply _ h v _ _ fun a => match a with | ⟨0, _⟩ => rfl | ⟨1, _⟩ => rfl

/-- A vector of 512 laid along the last axis of a [64, 2048, 512] array (through [1, 1, 512]) reads, at (b, s, e), the
    vector at e. -/
theorem bcast_vec_apply (h₁ : S512.BroadcastsInDim S1x1x512 (![2] : Fin 1 → Fin S1x1x512.rank))
    (h₂ : S1x1x512.BroadcastsInDim S64x2048x512 (![0, 1, 2] : Fin 3 → Fin S64x2048x512.rank))
    (v : S512.Idx → α) (b : Fin 64) (s : Fin 2048) (e : Fin 512) :
    broadcastInDim S64x2048x512 ![0, 1, 2] h₂ (broadcastInDim S1x1x512 ![2] h₁ v) (ix3 b s e) = v (ix1 e) := by
  rw [broadcastInDim_apply _ h₂ _ (ix3 b s e) (ix3 (0 : Fin 1) (0 : Fin 1) e)
    (fun a => match a with | ⟨0, _⟩ => rfl | ⟨1, _⟩ => rfl | ⟨2, _⟩ => rfl)]
  exact broadcastInDim_apply _ h₁ v _ _ fun a => match a with | ⟨0, _⟩ => rfl

end Layout

/-! ## The gather of a table row -/

section Gather
variable {α : Type}

/-- The start-indices index a result index reads its one start component at: (b, s, 0). -/
theorem gather_siIdx (b : Fin 64) (s : Fin 2048) (e : Fin 512)
    (c : Fin gather_S1024x512_S64x2048x1_S64x2048x512_2_0_n_n_0_2_1512.startIndexMap.length) :
    gather_S1024x512_S64x2048x1_S64x2048x512_2_0_n_n_0_2_1512.siIdx (ix3 b s e) c = ix3 b s (0 : Fin 1) := by
  funext a; refine Fin.ext ?_
  match a with
  | ⟨0, _⟩ => rfl
  | ⟨1, _⟩ => rfl
  | ⟨2, _⟩ => exact Nat.lt_one_iff.mp c.isLt

/-- THE GATHER READ AT (b, s, e): row (the start index at (b, s, 0), read signed and clamped into [0, 1023]) of the
    [1024, 512] table, column e. -/
theorem gather_row_apply (t : S1024x512.Idx → α) (idx : IVec S64x2048x1 32) (b : Fin 64) (s : Fin 2048) (e : Fin 512) :
    Host.gather gather_S1024x512_S64x2048x1_S64x2048x512_2_0_n_n_0_2_1512 t idx (ix3 b s e)
      = t (ix2 (⟨min (idx (ix3 b s (0 : Fin 1))).toInt.toNat 1023, by omega⟩ : Fin 1024) e) := by
  unfold Host.gather
  congr 1
  funext a
  refine Fin.ext ?_
  match a with
  | ⟨0, _⟩ =>
    show gather_S1024x512_S64x2048x1_S64x2048x512_2_0_n_n_0_2_1512.start (ix3 b s e) idx 0
      + gather_S1024x512_S64x2048x1_S64x2048x512_2_0_n_n_0_2_1512.batchCoord (ix3 b s e) 0
      + gather_S1024x512_S64x2048x1_S64x2048x512_2_0_n_n_0_2_1512.offCoord (ix3 b s e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x512_S64x2048x1_S64x2048x512_2_0_n_n_0_2_1512.startIndexMap from
      List.mem_singleton.mpr rfl), gather_siIdx]
    rfl
  | ⟨1, _⟩ =>
    show gather_S1024x512_S64x2048x1_S64x2048x512_2_0_n_n_0_2_1512.start (ix3 b s e) idx 1
      + gather_S1024x512_S64x2048x1_S64x2048x512_2_0_n_n_0_2_1512.batchCoord (ix3 b s e) 1
      + gather_S1024x512_S64x2048x1_S64x2048x512_2_0_n_n_0_2_1512.offCoord (ix3 b s e) 1 = _
    rw [GatherDims.batchCoord_eq_zero _ _ _ List.not_mem_nil]
    unfold GatherDims.start
    rw [dif_neg (show ¬ (1 : Fin 2) ∈ gather_S1024x512_S64x2048x1_S64x2048x512_2_0_n_n_0_2_1512.startIndexMap from by
      decide)]
    simp only [Nat.zero_add]
    unfold GatherDims.offCoord
    rw [dif_pos (show (1 : Fin 2) ∈ gather_S1024x512_S64x2048x1_S64x2048x512_2_0_n_n_0_2_1512.sKept from by decide)]
    rfl

end Gather

/-! ## The reduction over the unit axis -/

/-- A fold over a one-point range is one application of the operation. -/
theorem fold_fin_one {β : Type} {n : Nat} (hn : n = 1) (op : β → β → β) [Std.Commutative op] [Std.Associative op]
    (c : β) (g : Fin n → β) :
    Finset.fold op c g (Finset.univ : Finset (Fin n)) = op (g ⟨0, by omega⟩) c := by
  subst hn
  rw [Finset.univ_unique, Finset.fold_singleton]
  rfl

/-- The `and` over the one entry of the trailing unit axis, from the bit 1, is that entry. -/
theorem reduce_unit_apply (m : IVec S64x2048x1 1) (h' : S64x2048x1.ReducesTo [2] S64x2048) (hu : 0 < S_.numel)
    (b : Fin 64) (s : Fin 2048) :
    Host.reduce IntOp.andi m (constantI S_ 1 1#1) h' hu (ix2 b s) = m (ix3 b s (0 : Fin 1)) := by
  have h : S64x2048x1.Reduces [2] S64x2048 := by decide
  rw [Host.reduce_eq_fold_single IntOp.andi m _ h' h hu]
  refine (fold_fin_one (n := S64x2048x1.size 2) rfl IntOp.andi _ _).trans ?_
  have hl : h.lift (ix2 b s) (⟨0, by decide⟩ : Fin (S64x2048x1.size 2)) = ix3 b s (0 : Fin 1) := by
    funext a; refine Fin.ext ?_
    match a with
    | ⟨0, _⟩ => rfl
    | ⟨1, _⟩ => rfl
    | ⟨2, _⟩ => rfl
  show IntOp.andi (m (h.lift (ix2 b s) ⟨0, _⟩)) 1#1 = _
  rw [hl]
  rcases BitVec.eq_zero_or_eq_one (m (ix3 b s (0 : Fin 1))) with h0 | h1
  · rw [h0]; rfl
  · rw [h1]; rfl

/-! ## The second layer's product -/

section Dot

theorem dot_lhs_0 (j : S64x2048x512.Idx) (k : dot_S64x2048x512_S512x512_S64x2048x512_2_1_01_0_n_n.contr.Idx) :
    (dot_S64x2048x512_S512x512_S64x2048x512_2_1_01_0_n_n.lhsIdx j k 0).val = (j 0).val := by
  unfold DotDims.lhsIdx
  rw [dif_neg (show ¬ (0 : Fin 3) ∈ dot_S64x2048x512_S512x512_S64x2048x512_2_1_01_0_n_n.lhsBatch from List.not_mem_nil),
    dif_pos (show (0 : Fin 3) ∈ dot_S64x2048x512_S512x512_S64x2048x512_2_1_01_0_n_n.lhsNonContracting from by decide)]
  rfl

theorem dot_lhs_1 (j : S64x2048x512.Idx) (k : dot_S64x2048x512_S512x512_S64x2048x512_2_1_01_0_n_n.contr.Idx) :
    (dot_S64x2048x512_S512x512_S64x2048x512_2_1_01_0_n_n.lhsIdx j k 1).val = (j 1).val := by
  unfold DotDims.lhsIdx
  rw [dif_neg (show ¬ (1 : Fin 3) ∈ dot_S64x2048x512_S512x512_S64x2048x512_2_1_01_0_n_n.lhsBatch from List.not_mem_nil),
    dif_pos (show (1 : Fin 3) ∈ dot_S64x2048x512_S512x512_S64x2048x512_2_1_01_0_n_n.lhsNonContracting from by decide)]
  rfl

theorem dot_lhs_2 (j : S64x2048x512.Idx) (k : dot_S64x2048x512_S512x512_S64x2048x512_2_1_01_0_n_n.contr.Idx) :
    (dot_S64x2048x512_S512x512_S64x2048x512_2_1_01_0_n_n.lhsIdx j k 2).val = (k ⟨0, by decide⟩).val :=
  DotDims.lhsIdx_val_of_single _ rfl j k

theorem dot_rhs_0 (j : S64x2048x512.Idx) (k : dot_S64x2048x512_S512x512_S64x2048x512_2_1_01_0_n_n.contr.Idx) :
    (dot_S64x2048x512_S512x512_S64x2048x512_2_1_01_0_n_n.rhsIdx j k 0).val = (j 2).val := by
  unfold DotDims.rhsIdx
  rw [dif_neg (show ¬ (0 : Fin 2) ∈ dot_S64x2048x512_S512x512_S64x2048x512_2_1_01_0_n_n.rhsBatch from List.not_mem_nil),
    dif_pos (show (0 : Fin 2) ∈ dot_S64x2048x512_S512x512_S64x2048x512_2_1_01_0_n_n.rhsNonContracting from by decide)]
  rfl

theorem dot_rhs_1 (j : S64x2048x512.Idx) (k : dot_S64x2048x512_S512x512_S64x2048x512_2_1_01_0_n_n.contr.Idx) :
    (dot_S64x2048x512_S512x512_S64x2048x512_2_1_01_0_n_n.rhsIdx j k 1).val = (k ⟨0, by decide⟩).val :=
  DotDims.rhsIdx_val_of_single _ rfl j k

/-- THE PRODUCT READ AT (b, s, f): the sum over the contracted coordinate e of the left operand at (b, s, e) times the
    right operand at (f, e). -/
theorem dot_apply (A : FVec Ideal S64x2048x512 .f32) (B : FVec Ideal S512x512 .f32) (b : Fin 64) (s : Fin 2048) (f : Fin 512) :
    Host.dotGeneral (F := Ideal) dot_S64x2048x512_S512x512_S64x2048x512_2_1_01_0_n_n none A B (ix3 b s f)
      = ∑ e : Fin 512, A (ix3 b s e) * B (ix2 f e) := by
  show FloatOps.dotGeneral _ none _ A B (ix3 b s f) = _
  rw [Ideal.dotGeneral_apply,
    ← Equiv.sum_comp (contrEquiv1 dot_S64x2048x512_S512x512_S64x2048x512_2_1_01_0_n_n 512 rfl rfl).symm]
  refine Finset.sum_congr rfl fun e _ => ?_
  have hk := contrEquiv1_symm_val dot_S64x2048x512_S512x512_S64x2048x512_2_1_01_0_n_n 512 rfl rfl e
  have hl : dot_S64x2048x512_S512x512_S64x2048x512_2_1_01_0_n_n.lhsIdx (ix3 b s f)
      ((contrEquiv1 dot_S64x2048x512_S512x512_S64x2048x512_2_1_01_0_n_n 512 rfl rfl).symm e) = ix3 b s e := by
    funext a; refine Fin.ext ?_
    match a with
    | ⟨0, _⟩ => exact dot_lhs_0 _ _
    | ⟨1, _⟩ => exact dot_lhs_1 _ _
    | ⟨2, _⟩ => exact (dot_lhs_2 _ _).trans hk
  have hr : dot_S64x2048x512_S512x512_S64x2048x512_2_1_01_0_n_n.rhsIdx (ix3 b s f)
      ((contrEquiv1 dot_S64x2048x512_S512x512_S64x2048x512_2_1_01_0_n_n 512 rfl rfl).symm e) = ix2 f e := by
    funext a; refine Fin.ext ?_
    match a with
    | ⟨0, _⟩ => exact dot_rhs_0 _ _
    | ⟨1, _⟩ => exact (dot_rhs_1 _ _).trans hk
  rw [hl, hr]

end Dot

/-! ## The take's start indices -/

/-- The take's start indices are the ids clamped below at zero: a clamped id is never negative, so the wrap by 1024 is
    off everywhere. -/
theorem startIdx_eq (x : IVec S64x2048 32) (h₀ h₁ h₂ : S_.BroadcastsInDim S64x2048 (![] : Fin 0 → Fin S64x2048.rank))
    (hu : S64x2048.BroadcastsInDim S64x2048x1 (![0, 1] : Fin 2 → Fin S64x2048x1.rank)) :
    broadcastInDim S64x2048x1 ![0, 1] hu
        (select
          (cmpi .slt (maxsi (broadcastInDim S64x2048 ![] h₀ (id (constantI S_ 32 0#32))) x)
            (broadcastInDim S64x2048 ![] h₁ (constantI S_ 32 0#32)))
          (addi (maxsi (broadcastInDim S64x2048 ![] h₀ (id (constantI S_ 32 0#32))) x)
            (broadcastInDim S64x2048 ![] h₂ (constantI S_ 32 1024#32)))
          (maxsi (broadcastInDim S64x2048 ![] h₀ (id (constantI S_ 32 0#32))) x))
      = fun j => IntOp.maxsi 0#32 (x (ix2 (j 0) (j 1))) := by
  funext j
  rw [bcast_unit_apply, select_apply]
  show Scalar.select (IntOp.cmpi .slt (IntOp.maxsi 0#32 (x (ix2 (j 0) (j 1)))) 0#32)
    (IntOp.addi (IntOp.maxsi 0#32 (x (ix2 (j 0) (j 1)))) 1024#32) (IntOp.maxsi 0#32 (x (ix2 (j 0) (j 1)))) = _
  rw [slt_zero_of_nonneg _ (by rw [toInt_clamp0]; omega), select_zero]

/-- Index by index the reference's term is the table row the clamped id selects. -/
theorem refOut_eq (x : IVec S64x2048 32) (w1 : FVec Ideal S512x1024 .f32) (b1 : FVec Ideal S512 .f32)
    (w2 : FVec Ideal S512x512 .f32) (b2 : FVec Ideal S512 .f32) (hle : ∀ j, (x j).toInt ≤ 1023) :
    refOut x w1 b1 w2 b2 = Cert.Spec.out x w1 b1 w2 b2 := by
  funext j
  obtain ⟨b, s, f, rfl⟩ : ∃ (b : Fin 64) (s : Fin 2048) (f : Fin 512), j = ix3 b s f := ⟨j 0, j 1, j 2, eq_ix3 j⟩
  -- the id at (b, s), clamped below at zero, lies in [0, 1023]
  have hv := hle (ix2 b s)
  have hc := toInt_clamp0 (x (ix2 b s))
  have hc0 : 0 ≤ (IntOp.maxsi 0#32 (x (ix2 b s))).toInt := by rw [hc]; omega
  have hc1 : (IntOp.maxsi 0#32 (x (ix2 b s))).toInt ≤ 1023 := by rw [hc]; omega
  -- the start indices; the second layer's bias, and its product as a sum over the hidden coordinate
  unfold refOut
  dsimp only
  rw [startIdx_eq, addf_apply, bcast_vec_apply, dot_apply]
  show _ = (∑ e : Fin 512, max (w1 (ix2 e (Cert.Spec.row (x (ix2 b s)))) + b1 (ix1 e)) 0 * w2 (ix2 f e)) + b2 (ix1 f)
  refine congrArg (· + b2 (ix1 f)) ?_
  refine Finset.sum_congr rfl fun e _ => ?_
  refine congrArg (· * w2 (ix2 f e)) ?_
  -- the first layer at (b, s, e): the rectifier, the bias, the take
  rw [maximumf_apply, addf_apply, bcast_vec_apply, bcast_const_apply, Ideal.ofBits_zero_f32, select_apply,
    bcast_rows_apply, reduce_unit_apply, gather_row_apply, transpose_ix2_apply, andi_apply, cmpi_apply, cmpi_apply,
    bcast_constI_apply, bcast_const_apply]
  show max (Scalar.select
      (IntOp.andi (IntOp.cmpi .sge (IntOp.maxsi 0#32 (x (ix2 b s))) 0#32)
        (IntOp.cmpi .sle (IntOp.maxsi 0#32 (x (ix2 b s))) 1023#32))
      (w1 (ix2 e ⟨min (IntOp.maxsi 0#32 (x (ix2 b s))).toInt.toNat 1023, _⟩))
      (Ideal.ofBits .f32 0x7FC00000#32) + b1 (ix1 e)) 0 = _
  -- both range tests are on, and the clamped start index is the specification's row
  rw [sge_zero_of_nonneg _ hc0, sle_1023_of_le _ hc1, show IntOp.andi 1#1 1#1 = 1#1 from rfl, select_one,
    start_eq_row _ hv]

theorem run (m : (ℓ : Loc nD τ sig) → Buf (Elt Ideal) ℓ) (ρ : Dev nD → PrngReg)
    (hle : ∀ (c : Dev nD) (j : Cert.Spec.SX.Idx), (X m c j).toInt ≤ 1023) :
    θ_run (defs (F := Ideal)) (onTc (τ := τ) (main (F := Ideal))) ⟨m, fun _ => 0, ρ⟩ (fun r => ∀ c : Dev nD,
      r.2.mem ((c.tc : Thread nD τ).loc main_v10) = Cert.Spec.out (X m c) (W1 m c) (B1 m c) (W2 m c) (B2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => ⟨(h c).1.trans (refOut_eq _ _ _ _ _ (hle c)), (h c).2⟩) (run_term m ρ)

end Cert.ReferenceIdeal.RefValue

end
-- ==== Proof.lean ====
/-
  Kernel and reference both compute, for every token (b, s) and output feature f,
      T[row (x[b, s]), f],   T[i, f] = Σ_e max (W1[e, i] + b1[e]) 0 · W2[f, e] + b2[f],
  where row clamps the token id to [0, 1023]. The reference gathers row max(x, 0) of W1ᵀ and runs the two layers per
  token; for ids above 1023 its gather is out of range, which the precondition excludes. The kernel builds T once,
  splits it as T and T - T, and selects the row by one-hot products accumulated over four chunks of 256 rows; the residual
  vanishes because T is real when the inputs are finite.
-/
import proofs.«417835_j26869315403945_3_alg».proof.Defs
import proofs.«417835_j26869315403945_3_alg».proof.Proof.Gen.Kernel
import proofs.«417835_j26869315403945_3_alg».proof.Proof.Gen.Kernel.Frame
import proofs.«417835_j26869315403945_3_alg».proof.Proof.Gen.KernelIdeal
import proofs.«417835_j26869315403945_3_alg».proof.Proof.Gen.KernelIdeal.Frame
import proofs.«417835_j26869315403945_3_alg».proof.Proof.Gen.ReferenceIdeal
import proofs.«417835_j26869315403945_3_alg».proof.Proof.Gen.Pre_finite_inputs
import proofs.«417835_j26869315403945_3_alg».proof.Proof.PreFacts
import proofs.«417835_j26869315403945_3_alg».proof.Proof.KernelValue
import proofs.«417835_j26869315403945_3_alg».proof.Proof.RefValue
import Idealize.ShloMosaic.Adequacy
import Idealize.ShloMosaic.Init

noncomputable section

namespace Cert.Proof

open Idealize.ShloMosaic Idealize.SL.Sem

/-- The reference runs and keeps its arguments: its value run with the result dropped; the precondition bounds the ids. -/
theorem frame_ref : Cert.frame_ReferenceIdeal := fun m ρ hpre =>
  (θ_run Cert.ReferenceIdeal.defs _ _).mono (fun _ h c => (h c).2)
    (Cert.ReferenceIdeal.RefValue.run m ρ (fun c => (Cert.PreFacts.decode _ _ _ _ _ (hpre c)).2.2.2.2))

/-- Both programs end at the specification of their own arguments, and the arguments agree. -/
theorem algebraic : Cert.algebraic_KernelIdeal_ReferenceIdeal := by
  intro m ρ m' ρ' hpre hagree
  have hd := fun c => Cert.PreFacts.decode _ _ _ _ _ (hpre c)
  refine ⟨_, Cert.KernelIdeal.KValue.run m ρ (fun c => ⟨(hd c).1, (hd c).2.1, (hd c).2.2.1, (hd c).2.2.2.1⟩), ?_⟩
  refine (θ_run Cert.ReferenceIdeal.defs _ _).mono (fun _ h c => ⟨(h c).1.trans ?_, (h c).2⟩)
    (Cert.ReferenceIdeal.RefValue.run m' ρ' (fun c j => by
      have := (hd c).2.2.2.2 j
      rw [← (hagree c).1] at this; exact this))
  dsimp only [Cert.ReferenceIdeal.RefRun.X, Cert.ReferenceIdeal.RefRun.W1, Cert.ReferenceIdeal.RefRun.B1,
    Cert.ReferenceIdeal.RefRun.W2, Cert.ReferenceIdeal.RefRun.B2, Cert.KernelIdeal.KHost.X, Cert.KernelIdeal.KHost.W1,
    Cert.KernelIdeal.KHost.B1, Cert.KernelIdeal.KHost.W2, Cert.KernelIdeal.KHost.B2]
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
